-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x750 : Shape := ⟨2, ![4096, 750]⟩
abbrev S_ : Shape := ⟨0, ![]⟩

class Facts : Prop where
  bcast_S_S4096x750 : S_.BroadcastsInDim S4096x750 (![] : Fin 0 → Fin S4096x750.rank)
  reducesTo_S4096x750_S_d0_1 : S4096x750.ReducesTo [0, 1] S_
  h_S_ : 0 < S_.numel

variable [Facts]

def fn {F : FTy → Type} [FloatOps F] (main_arg0 : FVec F S4096x750 .f32) (main_arg1 : FVec F S4096x750 .f32) : IVec S_ 1 :=
  let main_v0 : FVec F S4096x750 .f32 := Host.absf main_arg0
  let main_cst : FVec F S_ .f32 := constant S_ .f32 0x7F800000#32
  let main_v1 : FVec F S4096x750 .f32 := broadcastInDim S4096x750 ![] bcast_S_S4096x750 main_cst
  let main_v2 : IVec S4096x750 1 := cmpf .olt main_v0 main_v1
  let main_c : IVec S_ 1 := constantI S_ 1 1#1
  let main_v3 : IVec S_ 1 := (fun x v => Host.reduce IntOp.andi x v reducesTo_S4096x750_S_d0_1 h_S_) main_v2 main_c
  let main_v4 : FVec F S4096x750 .f32 := Host.absf main_arg1
  let main_cst_0 : FVec F S_ .f32 := constant S_ .f32 0x7F800000#32
  let main_v5 : FVec F S4096x750 .f32 := broadcastInDim S4096x750 ![] bcast_S_S4096x750 main_cst_0
  let main_v6 : IVec S4096x750 1 := cmpf .olt main_v4 main_v5
  let main_c_1 : IVec S_ 1 := constantI S_ 1 1#1
  let main_v7 : IVec S_ 1 := (fun x v => Host.reduce IntOp.andi x v reducesTo_S4096x750_S_d0_1 h_S_) main_v6 main_c_1
  let main_v8 : IVec S_ 1 := andi main_v3 main_v7
  main_v8
-- ==== Kernel.lean ====
abbrev S4096x750 : Shape := ⟨2, ![4096, 750]⟩
abbrev S4096x1 : Shape := ⟨2, ![4096, 1]⟩
abbrev S4096x1x6 : Shape := ⟨3, ![4096, 1, 6]⟩
abbrev S4096x6 : Shape := ⟨2, ![4096, 6]⟩
abbrev S4096x1x5 : Shape := ⟨3, ![4096, 1, 5]⟩
abbrev S4096x5 : Shape := ⟨2, ![4096, 5]⟩
abbrev S4096x761 : Shape := ⟨2, ![4096, 761]⟩
abbrev S1x1 : Shape := ⟨2, ![1, 1]⟩
abbrev S512x750 : Shape := ⟨2, ![512, 750]⟩
abbrev S512x761 : Shape := ⟨2, ![512, 761]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S4096x750, .f32⟩
  | .hbm, ⟨1, _⟩ => ⟨S4096x750, .f32⟩
  | .hbm, ⟨2, _⟩ => ⟨S4096x1, .f32⟩
  | .hbm, ⟨3, _⟩ => ⟨S4096x1x6, .f32⟩
  | .hbm, ⟨4, _⟩ => ⟨S4096x6, .f32⟩
  | .hbm, ⟨5, _⟩ => ⟨S4096x1, .f32⟩
  | .hbm, ⟨6, _⟩ => ⟨S4096x1x5, .f32⟩
  | .hbm, ⟨7, _⟩ => ⟨S4096x5, .f32⟩
  | .hbm, ⟨8, _⟩ => ⟨S4096x761, .f32⟩
  | .hbm, ⟨9, _⟩ => ⟨S4096x1, .f32⟩
  | .hbm, ⟨10, _⟩ => ⟨S4096x1x6, .f32⟩
  | .hbm, ⟨11, _⟩ => ⟨S4096x6, .f32⟩
  | .hbm, ⟨12, _⟩ => ⟨S4096x1, .f32⟩
  | .hbm, ⟨13, _⟩ => ⟨S4096x1x5, .f32⟩
  | .hbm, ⟨14, _⟩ => ⟨S4096x5, .f32⟩
  | .hbm, ⟨15, _⟩ => ⟨S4096x761, .f32⟩
  | .hbm, ⟨16, _⟩ => ⟨S1x1, .f32⟩
  | .hbm, ⟨17, _⟩ => ⟨S_, .f32⟩
  | .local _ .vmem, ⟨0, _⟩ => ⟨S512x750, .f32⟩
  | .local _ .vmem, ⟨1, _⟩ => ⟨S512x750, .f32⟩
  | .local _ .vmem, ⟨2, _⟩ => ⟨S512x750, .f32⟩
  | .local _ .vmem, ⟨3, _⟩ => ⟨S512x750, .f32⟩
  | .local _ .vmem, ⟨4, _⟩ => ⟨S512x761, .f32⟩
  | .local _ .vmem, ⟨5, _⟩ => ⟨S512x761, .f32⟩
  | .local _ .vmem, ⟨6, _⟩ => ⟨S512x761, .f32⟩
  | .local _ .vmem, ⟨7, _⟩ => ⟨S512x761, .f32⟩
  | .local _ .vmem, ⟨8, _⟩ => ⟨S1x1, .f32⟩
  | .local _ .vmem, ⟨9, _⟩ => ⟨S1x1, .f32⟩
  | _, _ => ⟨S4096x750, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v212 : BitVec 1 := Scalar.cmpi .eq arg0 c7_i32
  let v213 : BitVec 32 := Scalar.extui v212
  let c0_i32_59 : BitVec 32 := 0#32
  let v214 : BitVec 1 := Scalar.cmpi .ne v213 c0_i32_59
  v214

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x750 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x750 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x761 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x761 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S4096x750_S4096x1_0_0 : S4096x750.Slices ![0, 0] S4096x1
  bcast_S4096x1_S4096x1x6_0_1 : S4096x1.BroadcastsInDim S4096x1x6 (![0, 1] : Fin 2 → Fin S4096x1x6.rank)
  shapeCasts_S4096x1x6_S4096x6 : S4096x1x6.ShapeCasts S4096x6
  slices_S4096x750_S4096x1_0_749 : S4096x750.Slices ![0, 749] S4096x1
  bcast_S4096x1_S4096x1x5_0_1 : S4096x1.BroadcastsInDim S4096x1x5 (![0, 1] : Fin 2 → Fin S4096x1x5.rank)
  shapeCasts_S4096x1x5_S4096x5 : S4096x1x5.ShapeCasts S4096x5
  concatenates_S4096x6_S4096x750_S4096x5_S4096x761_d1 : Shape.Concatenates [S4096x6, S4096x750, S4096x5] S4096x761 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x750_S512x750_0_0 : ∀ a, (![0, 0] : Fin 2 → Nat) a + S512x750.size a ≤ S512x750.size a
  h_S512x750 : 0 < S512x750.numel
  inb_S512x761_S512x761_0_0 : ∀ a, (![0, 0] : Fin 2 → Nat) a + S512x761.size a ≤ S512x761.size a
  h_S512x761 : 0 < S512x761.numel
  shapeCasts_S512x761_S512x761 : S512x761.ShapeCasts S512x761
  slices_S512x761_o0_0_S512x750 : S512x761.Slices ![0, 0] S512x750
  reduces_S512x750_S512 : S512x750.Reduces [1] S512
  shapeCasts_S512_S512x1 : S512.ShapeCasts S512x1
  reduces_S512x1_S1 : S512x1.Reduces [0] S1
  shapeCasts_S1_S1x1 : S1.ShapeCasts S1x1
  slices_S512x761_o0_1_S512x750 : S512x761.Slices ![0, 1] S512x750
  slices_S512x761_o0_2_S512x750 : S512x761.Slices ![0, 2] S512x750
  slices_S512x761_o0_3_S512x750 : S512x761.Slices ![0, 3] S512x750
  slices_S512x761_o0_4_S512x750 : S512x761.Slices ![0, 4] S512x750
  slices_S512x761_o0_5_S512x750 : S512x761.Slices ![0, 5] S512x750
  slices_S512x761_o0_6_S512x750 : S512x761.Slices ![0, 6] S512x750
  slices_S512x761_o0_7_S512x750 : S512x761.Slices ![0, 7] S512x750
  slices_S512x761_o0_8_S512x750 : S512x761.Slices ![0, 8] S512x750
  slices_S512x761_o0_9_S512x750 : S512x761.Slices ![0, 9] S512x750
  slices_S512x761_o0_10_S512x750 : S512x761.Slices ![0, 10] S512x750
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x750.size a ≤ S4096x750.size a
  hwx0_0 : ∀ i : grid0.Coords, EltTy.bits .f32 = 32 ∨ (Rect.block (s := S4096x750) S512x750.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x750.size a ≤ S4096x750.size a
  hwx0_1 : ∀ i : grid0.Coords, EltTy.bits .f32 = 32 ∨ (Rect.block (s := S4096x750) S512x750.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x761.size a ≤ S4096x761.size a
  hwx0_2 : ∀ i : grid0.Coords, EltTy.bits .f32 = 32 ∨ (Rect.block (s := S4096x761) S512x761.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x761.size a ≤ S4096x761.size a
  hwx0_3 : ∀ i : grid0.Coords, EltTy.bits .f32 = 32 ∨ (Rect.block (s := S4096x761) S512x761.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S512x750.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x750.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x761.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x761.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x750 : Shape := ⟨2, ![4096, 750]⟩
abbrev S4096x1 : Shape := ⟨2, ![4096, 1]⟩
abbrev S4096x1x6 : Shape := ⟨3, ![4096, 1, 6]⟩
abbrev S4096x6 : Shape := ⟨2, ![4096, 6]⟩
abbrev S4096x1x5 : Shape := ⟨3, ![4096, 1, 5]⟩
abbrev S4096x5 : Shape := ⟨2, ![4096, 5]⟩
abbrev S4096x761 : Shape := ⟨2, ![4096, 761]⟩
abbrev S4096x750x1 : Shape := ⟨3, ![4096, 750, 1]⟩
abbrev S4096x750x11 : Shape := ⟨3, ![4096, 750, 11]⟩
abbrev S_ : Shape := ⟨0, ![]⟩
abbrev S4096 : Shape := ⟨1, ![4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x750, .f32⟩
  | .hbm, ⟨1, _⟩ => ⟨S4096x750, .f32⟩
  | .hbm, ⟨2, _⟩ => ⟨S4096x1, .f32⟩
  | .hbm, ⟨3, _⟩ => ⟨S4096x1x6, .f32⟩
  | .hbm, ⟨4, _⟩ => ⟨S4096x6, .f32⟩
  | .hbm, ⟨5, _⟩ => ⟨S4096x1, .f32⟩
  | .hbm, ⟨6, _⟩ => ⟨S4096x1x5, .f32⟩
  | .hbm, ⟨7, _⟩ => ⟨S4096x5, .f32⟩
  | .hbm, ⟨8, _⟩ => ⟨S4096x761, .f32⟩
  | .hbm, ⟨9, _⟩ => ⟨S4096x1, .f32⟩
  | .hbm, ⟨10, _⟩ => ⟨S4096x1x6, .f32⟩
  | .hbm, ⟨11, _⟩ => ⟨S4096x6, .f32⟩
  | .hbm, ⟨12, _⟩ => ⟨S4096x1, .f32⟩
  | .hbm, ⟨13, _⟩ => ⟨S4096x1x5, .f32⟩
  | .hbm, ⟨14, _⟩ => ⟨S4096x5, .f32⟩
  | .hbm, ⟨15, _⟩ => ⟨S4096x761, .f32⟩
  | .hbm, ⟨16, _⟩ => ⟨S4096x750, .f32⟩
  | .hbm, ⟨17, _⟩ => ⟨S4096x750, .f32⟩
  | .hbm, ⟨18, _⟩ => ⟨S4096x750, .f32⟩
  | .hbm, ⟨19, _⟩ => ⟨S4096x750, .f32⟩
  | .hbm, ⟨20, _⟩ => ⟨S4096x750, .f32⟩
  | .hbm, ⟨21, _⟩ => ⟨S4096x750, .f32⟩
  | .hbm, ⟨22, _⟩ => ⟨S4096x750, .f32⟩
  | .hbm, ⟨23, _⟩ => ⟨S4096x750, .f32⟩
  | .hbm, ⟨24, _⟩ => ⟨S4096x750, .f32⟩
  | .hbm, ⟨25, _⟩ => ⟨S4096x750, .f32⟩
  | .hbm, ⟨26, _⟩ => ⟨S4096x750, .f32⟩
  | .hbm, ⟨27, _⟩ => ⟨S4096x750x1, .f32⟩
  | .hbm, ⟨28, _⟩ => ⟨S4096x750x1, .f32⟩
  | .hbm, ⟨29, _⟩ => ⟨S4096x750x1, .f32⟩
  | .hbm, ⟨30, _⟩ => ⟨S4096x750x1, .f32⟩
  | .hbm, ⟨31, _⟩ => ⟨S4096x750x1, .f32⟩
  | .hbm, ⟨32, _⟩ => ⟨S4096x750x1, .f32⟩
  | .hbm, ⟨33, _⟩ => ⟨S4096x750x1, .f32⟩
  | .hbm, ⟨34, _⟩ => ⟨S4096x750x1, .f32⟩
  | .hbm, ⟨35, _⟩ => ⟨S4096x750x1, .f32⟩
  | .hbm, ⟨36, _⟩ => ⟨S4096x750x1, .f32⟩
  | .hbm, ⟨37, _⟩ => ⟨S4096x750x1, .f32⟩
  | .hbm, ⟨38, _⟩ => ⟨S4096x750x11, .f32⟩
  | .hbm, ⟨39, _⟩ => ⟨S4096x750, .f32⟩
  | .hbm, ⟨40, _⟩ => ⟨S4096x750, .f32⟩
  | .hbm, ⟨41, _⟩ => ⟨S4096x750, .f32⟩
  | .hbm, ⟨42, _⟩ => ⟨S4096x750, .f32⟩
  | .hbm, ⟨43, _⟩ => ⟨S4096x750, .f32⟩
  | .hbm, ⟨44, _⟩ => ⟨S4096x750, .f32⟩
  | .hbm, ⟨45, _⟩ => ⟨S4096x750, .f32⟩
  | .hbm, ⟨46, _⟩ => ⟨S4096x750, .f32⟩
  | .hbm, ⟨47, _⟩ => ⟨S4096x750, .f32⟩
  | .hbm, ⟨48, _⟩ => ⟨S4096x750, .f32⟩
  | .hbm, ⟨49, _⟩ => ⟨S4096x750, .f32⟩
  | .hbm, ⟨50, _⟩ => ⟨S4096x750x1, .f32⟩
  | .hbm, ⟨51, _⟩ => ⟨S4096x750x1, .f32⟩
  | .hbm, ⟨52, _⟩ => ⟨S4096x750x1, .f32⟩
  | .hbm, ⟨53, _⟩ => ⟨S4096x750x1, .f32⟩
  | .hbm, ⟨54, _⟩ => ⟨S4096x750x1, .f32⟩
  | .hbm, ⟨55, _⟩ => ⟨S4096x750x1, .f32⟩
  | .hbm, ⟨56, _⟩ => ⟨S4096x750x1, .f32⟩
  | .hbm, ⟨57, _⟩ => ⟨S4096x750x1, .f32⟩
  | .hbm, ⟨58, _⟩ => ⟨S4096x750x1, .f32⟩
  | .hbm, ⟨59, _⟩ => ⟨S4096x750x1, .f32⟩
  | .hbm, ⟨60, _⟩ => ⟨S4096x750x1, .f32⟩
  | .hbm, ⟨61, _⟩ => ⟨S4096x750x11, .f32⟩
  | .hbm, ⟨62, _⟩ => ⟨S4096x750x1, .f32⟩
  | .hbm, ⟨63, _⟩ => ⟨S4096x750x11, .f32⟩
  | .hbm, ⟨64, _⟩ => ⟨S4096x750x11, .f32⟩
  | .hbm, ⟨65, _⟩ => ⟨S4096x750x11, .f32⟩
  | .hbm, ⟨66, _⟩ => ⟨S4096x750x11, .f32⟩
  | .hbm, ⟨67, _⟩ => ⟨S_, .f32⟩
  | .hbm, ⟨68, _⟩ => ⟨S4096x750x11, .f32⟩
  | .hbm, ⟨69, _⟩ => ⟨S4096x750x11, .f32⟩
  | .hbm, ⟨70, _⟩ => ⟨S4096x750x11, .f32⟩
  | .hbm, ⟨71, _⟩ => ⟨S4096x750x1, .f32⟩
  | .hbm, ⟨72, _⟩ => ⟨S4096x750x11, .f32⟩
  | .hbm, ⟨73, _⟩ => ⟨S4096x750x11, .f32⟩
  | .hbm, ⟨74, _⟩ => ⟨S4096x750x11, .f32⟩
  | .hbm, ⟨75, _⟩ => ⟨S4096x750x11, .f32⟩
  | .hbm, ⟨76, _⟩ => ⟨S_, .f32⟩
  | .hbm, ⟨77, _⟩ => ⟨S_, .f32⟩
  | .hbm, ⟨78, _⟩ => ⟨S4096x750, .f32⟩
  | .hbm, ⟨79, _⟩ => ⟨S4096x750, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x750, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_cst : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_cst_0 : Ref sig .tc := ⟨.hbm, 76, rfl⟩
abbrev main_v73 : Ref sig .tc := ⟨.hbm, 77, rfl⟩
abbrev main_v74 : Ref sig .tc := ⟨.hbm, 78, rfl⟩
abbrev main_call0_v0 : Ref sig .tc := ⟨.hbm, 79, rfl⟩
abbrev main_call0_cst : Ref sig .tc := ⟨.hbm, 80, rfl⟩
abbrev main_call0_v1 : Ref sig .tc := ⟨.hbm, 81, rfl⟩
abbrev main_v75 : Ref sig .tc := ⟨.hbm, 82, rfl⟩
abbrev main_cst_1 : Ref sig .tc := ⟨.hbm, 83, rfl⟩
abbrev main_v76 : Ref sig .tc := ⟨.hbm, 84, rfl⟩
abbrev main_cst_2 : Ref sig .tc := ⟨.hbm, 85, rfl⟩
abbrev main_v77 : Ref sig .tc := ⟨.hbm, 86, rfl⟩
abbrev main_v78 : Ref sig .tc := ⟨.hbm, 87, rfl⟩
abbrev main_cst_3 : Ref sig .tc := ⟨.hbm, 88, rfl⟩
abbrev main_v79 : Ref sig .tc := ⟨.hbm, 89, rfl⟩

abbrev nD : Nat := 1
abbrev τ : Topo := Topo.v7x

variable {F : FTy → Type} [FloatOps F]

class Facts₀ : Prop where
  slices_S4096x750_S4096x1_0_0 : S4096x750.Slices ![0, 0] S4096x1
  bcast_S4096x1_S4096x1x6_0_1 : S4096x1.BroadcastsInDim S4096x1x6 (![0, 1] : Fin 2 → Fin S4096x1x6.rank)
  shapeCasts_S4096x1x6_S4096x6 : S4096x1x6.ShapeCasts S4096x6
  slices_S4096x750_S4096x1_0_749 : S4096x750.Slices ![0, 749] S4096x1
  bcast_S4096x1_S4096x1x5_0_1 : S4096x1.BroadcastsInDim S4096x1x5 (![0, 1] : Fin 2 → Fin S4096x1x5.rank)
  shapeCasts_S4096x1x5_S4096x5 : S4096x1x5.ShapeCasts S4096x5
  concatenates_S4096x6_S4096x750_S4096x5_S4096x761_d1 : Shape.Concatenates [S4096x6, S4096x750, S4096x5] S4096x761 1
  slices_S4096x761_S4096x750_0_0 : S4096x761.Slices ![0, 0] S4096x750
  slices_S4096x761_S4096x750_0_1 : S4096x761.Slices ![0, 1] S4096x750
  slices_S4096x761_S4096x750_0_2 : S4096x761.Slices ![0, 2] S4096x750
  slices_S4096x761_S4096x750_0_3 : S4096x761.Slices ![0, 3] S4096x750
  slices_S4096x761_S4096x750_0_4 : S4096x761.Slices ![0, 4] S4096x750
  slices_S4096x761_S4096x750_0_5 : S4096x761.Slices ![0, 5] S4096x750
  slices_S4096x761_S4096x750_0_6 : S4096x761.Slices ![0, 6] S4096x750
  slices_S4096x761_S4096x750_0_7 : S4096x761.Slices ![0, 7] S4096x750
  slices_S4096x761_S4096x750_0_8 : S4096x761.Slices ![0, 8] S4096x750
  slices_S4096x761_S4096x750_0_9 : S4096x761.Slices ![0, 9] S4096x750
  slices_S4096x761_S4096x750_0_10 : S4096x761.Slices ![0, 10] S4096x750
  bcast_S4096x750_S4096x750x1_0_1 : S4096x750.BroadcastsInDim S4096x750x1 (![0, 1] : Fin 2 → Fin S4096x750x1.rank)
  concatenates_S4096x750x1_S4096x750x1_S4096x750x1_S4096x750x1_S4096x750x1_S4096x750x1_S4096x750x1_S4096x750x1_S4096x750x1_S4096x750x1_S4096x750x1_S4096x750x11_d2 : Shape.Concatenates [S4096x750x1, S4096x750x1, S4096x750x1, S4096x750x1, S4096x750x1, S4096x750x1, S4096x750x1, S4096x750x1, S4096x750x1, S4096x750x1, S4096x750x1] S4096x750x11 2
  bcast_S4096x750x1_S4096x750x11_0_1_2 : S4096x750x1.BroadcastsInDim S4096x750x11 (![0, 1, 2] : Fin 3 → Fin S4096x750x11.rank)
  bcast_S_S4096x750x11 : S_.BroadcastsInDim S4096x750x11 (![] : Fin 0 → Fin S4096x750x11.rank)
  reducesTo_S4096x750x11_S_d0_1_2 : S4096x750x11.ReducesTo [0, 1, 2] S_
  h_S_ : 0 < S_.numel
  reducesTo_S4096x750_S4096_d1 : S4096x750.ReducesTo [1] S4096
  reducesTo_S4096_S_d0 : S4096.ReducesTo [0] S_

variable [Facts₀]

class Facts : Prop extends Facts₀ where

variable [Facts]
-- ==== Proof.KKit.lean ====
/-
  The kernel's program around its one region, and what the region's body is run over.

  @main is fourteen host operations (each row's first entry six times, the row, its last entry five times: the two
  padded arrays), the region on a grid of eight points (block `t` = rows `512 t … 512 t + 511` of the two arguments and
  of the two padded arrays), and one reshape of the region's `[1, 1]` result to a scalar. Stated here: the buffer
  contents the region is entered with (the launch memory after the fourteen operations), that the operations around
  the region leave the argument arrays alone, each window's block at a grid point, the body's two conditions (first
  point, last point) decided over the grid, and where the result window is idle.
-/
import proofs.«102223_j3959959847207_1_alg».proof.Proof.Gen.Kernel.Launch
import proofs.«102223_j3959959847207_1_alg».proof.Proof.Gen.Kernel.Skeleton
import proofs.«102223_j3959959847207_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the fourteen host operations. -/
abbrev entry0 (c : Dev nD) : Valuation τ sig (Elt F) := StableHlo.after (List.flatten [hostOps0]) (fun b => m (c, b))
/-- The same, read at a reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's five arrays (it writes the scalar result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- None of the fourteen operations writes the first argument: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- Nor the second. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point (every input is fetched at every point),
    for any proof data over the entry contents whose body leaves the block in place. -/
theorem before_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's two conditions -/

/-- "This is the first grid point": the condition under which the body zeroes its accumulator. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last grid point": the condition under which the body stores the accumulator into the result window. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before the last point the body stores nothing into the result window, and the pipeline does not write it back. -/
theorem idle4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
/-- At the last point it is stored. -/
theorem live4 : ∀ t : Fin cfg0.N, isLast (grid0.coords t) → cfg0.idle 4 (grid0.coords t) = false := by decide +kernel

/-! ## The memrefs the body is called with -/

abbrev ms0 (t : Fin cfg0.N) : Memref sig .tc .vmem S512x750 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x750 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x761 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x761 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a scratch buffer of the kernel's own, carried from point to point. -/
abbrev accM : Memref sig .tc .vmem S1x1 .f32 := Memref.whole cc0_scratch0
/-- The views through which the accumulator's and the result window's contents are stated. -/
abbrev accV : View sig .tc .vmem S1x1 .f32 := accM.view
abbrev outV : View sig .tc .vmem S1x1 .f32 := (Memref.whole cc0_stg4_0 : Memref sig .tc .vmem S1x1 .f32).view

/-- What the region's invariant holds besides the windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frm

end
-- ==== Proof.KRunFirst.lean ====
/-
  The body at the FIRST grid point, run whole: the accumulator is zeroed, then the point's partial loss is added to
  it; the result window is left untouched. The stores the run meets into the accumulator are its witness.
-/
import proofs.«102223_j3959959847207_1_alg».proof.Proof.KKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the accumulator at anything, the result window at contents handed back untouched) the body
    runs to its end with the inputs as they were and the accumulator overwritten by the pieces `LS`. -/
noncomputable def runFirst (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S512x750 .f32) (x2 x3 : Vec F S512x761 .f32) :
    { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun xi4 E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Frm

end
-- ==== Proof.KRunMid.lean ====
/-
  The body at a MIDDLE grid point (neither first nor last), run whole: the point's partial loss is added to the
  accumulator the point before left; the result window is left untouched.
-/
import proofs.«102223_j3959959847207_1_alg».proof.Proof.KKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point (the accumulator at `xs`, what the point before left; the result window at contents handed
    back untouched) the body runs to its end with the inputs as they were and the accumulator overwritten by `LS`. -/
noncomputable def runMid (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S512x750 .f32) (x2 x3 : Vec F S512x761 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun xi4 E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Frm

end
-- ==== Proof.KRunLast.lean ====
/-
  The body at the LAST grid point, run whole: the point's partial loss is added to the accumulator the point before
  left, and the accumulator (times one) is stored into the result window.
-/
import proofs.«102223_j3959959847207_1_alg».proof.Proof.KKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point (the accumulator at `xs`, the result window at anything) the body runs to its end with the inputs
    as they were, the result window overwritten by the pieces `L4` and the accumulator by `LS`. -/
noncomputable def runLast (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S512x750 .f32) (x2 x3 : Vec F S512x761 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg1 harg1 arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Frm

end
-- ==== Proof.KFrame.lean ====
/-
  The kernel's frame, and its run with the result named.

  Point by point the accumulator holds: after the first point, what the first-point body stores over a zeroed
  accumulator; after every later point, what the body stores over what the point before left (`accAt`). The result
  window is stored at the last point only (`resAt`), and is idle, and not written back, before. With these as proof
  data the body is run at every grid point by cases (first, middle, last), the region is launched between the host
  operations before it and the reshape after it, and both argument arrays end as launched.
-/
import proofs.«102223_j3959959847207_1_alg».proof.Proof.KRunFirst
import proofs.«102223_j3959959847207_1_alg».proof.Proof.KRunMid
import proofs.«102223_j3959959847207_1_alg».proof.Proof.KRunLast

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's stores into the accumulator cover it. -/
theorem coverFirst (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 : Vec F S512x750 .f32) (x2 x3 : Vec F S512x761 .f32) (y : S1x1.Idx) :
    ∃ pc ∈ (runFirst c i arg1 harg1 arg2 harg2 arg3 harg3 arg4 harg4 arg5 harg5 arg6 harg6 hc0 hc1 x0 x1 x2 x3).1, y ∈ pc.1.set :=
  View.cover_of_tiledL (runFirst c i arg1 harg1 arg2 harg2 arg3 harg3 arg4 harg4 arg5 harg5 arg6 harg6 hc0 hc1 x0 x1 x2 x3).1 S1x1.size (by sl_kernel_rfl) y
/-- What the first point leaves in the accumulator. -/
def accFirst (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 : Vec F S512x750 .f32) (x2 x3 : Vec F S512x761 .f32) : Vec F S1x1 .f32 :=
  accV.read (Elt F) (accV.writes (Elt F) accV.junk (runFirst c i arg1 harg1 arg2 harg2 arg3 harg3 arg4 harg4 arg5 harg5 arg6 harg6 hc0 hc1 x0 x1 x2 x3).1)

/-- A middle point's stores into the accumulator cover it. -/
theorem coverMid (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 : Vec F S512x750 .f32) (x2 x3 : Vec F S512x761 .f32) (xs : Vec F S1x1 .f32) (y : S1x1.Idx) :
    ∃ pc ∈ (runMid c i arg1 harg1 arg2 harg2 arg3 harg3 arg4 harg4 arg5 harg5 arg6 harg6 hc0 hc1 x0 x1 x2 x3 xs).1, y ∈ pc.1.set :=
  View.cover_of_tiledL (runMid c i arg1 harg1 arg2 harg2 arg3 harg3 arg4 harg4 arg5 harg5 arg6 harg6 hc0 hc1 x0 x1 x2 x3 xs).1 S1x1.size (by sl_kernel_rfl) y
/-- What a middle point leaves in the accumulator, over what the point before left. -/
def accMid (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 : Vec F S512x750 .f32) (x2 x3 : Vec F S512x761 .f32) (xs : Vec F S1x1 .f32) : Vec F S1x1 .f32 :=
  accV.read (Elt F) (accV.writes (Elt F) accV.junk (runMid c i arg1 harg1 arg2 harg2 arg3 harg3 arg4 harg4 arg5 harg5 arg6 harg6 hc0 hc1 x0 x1 x2 x3 xs).1)

/-- The last point's stores into the accumulator cover it, -/
theorem coverLastAcc (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) (y : S1x1.Idx) :
    ∃ pc ∈ (runLast c i arg1 harg1 arg2 harg2 arg3 harg3 arg4 harg4 arg5 harg5 arg6 harg6 hc0 hc1 x0 x1 x2 x3 xs).2.1, y ∈ pc.1.set :=
  View.cover_of_tiledL (runLast c i arg1 harg1 arg2 harg2 arg3 harg3 arg4 harg4 arg5 harg5 arg6 harg6 hc0 hc1 x0 x1 x2 x3 xs).2.1 S1x1.size (by sl_kernel_rfl) y
/-- and its store into the result window covers that. -/
theorem coverLastOut (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) (y : S1x1.Idx) :
    ∃ pc ∈ (runLast c i arg1 harg1 arg2 harg2 arg3 harg3 arg4 harg4 arg5 harg5 arg6 harg6 hc0 hc1 x0 x1 x2 x3 xs).1, y ∈ pc.1.set :=
  View.cover_of_tiledL (runLast c i arg1 harg1 arg2 harg2 arg3 harg3 arg4 harg4 arg5 harg5 arg6 harg6 hc0 hc1 x0 x1 x2 x3 xs).1 S1x1.size (by sl_kernel_rfl) y
/-- What the last point leaves in the accumulator, -/
def accLast (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) : Vec F S1x1 .f32 :=
  accV.read (Elt F) (accV.writes (Elt F) accV.junk (runLast c i arg1 harg1 arg2 harg2 arg3 harg3 arg4 harg4 arg5 harg5 arg6 harg6 hc0 hc1 x0 x1 x2 x3 xs).2.1)
/-- and in the result window. -/
def outLast (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) : Vec F S1x1 .f32 :=
  outV.read (Elt F) (outV.writes (Elt F) outV.junk (runLast c i arg1 harg1 arg2 harg2 arg3 harg3 arg4 harg4 arg5 harg5 arg6 harg6 hc0 hc1 x0 x1 x2 x3 xs).1)

/-! ## The accumulator, point by point -/

theorem N8 : cfg0.N = 8 := N_0

theorem notLast_zero (hn : 0 < cfg0.N) : ¬isLast (grid0.coords ⟨0, hn⟩) := fun h => by
  have h' := (isLast_iff ⟨0, hn⟩).mp h; simp at h'
theorem notFirst_succ (n : ℕ) (hn : n + 1 < cfg0.N) : ¬isFirst (grid0.coords ⟨n + 1, hn⟩) := fun h => by
  have h' := (isFirst_iff ⟨n + 1, hn⟩).mp h
  have hN : n + 1 < 8 := lt_of_lt_of_eq hn N8
  dsimp only at h'; omega

/-- What the accumulator holds after the body at position `n`. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr (Nat.zero_mod _)) (notLast_zero hn) (blockAt m c 0 ⟨0, hn⟩) (blockAt m c 1 ⟨0, hn⟩) (blockAt m c 2 ⟨0, hn⟩) (blockAt m c 3 ⟨0, hn⟩)
  | n + 1, hn =>
    if h1 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) ((isLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) (fun h => h1 ((isLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (accAt c n (Nat.lt_of_succ_lt hn))

theorem accAt_first (c : Dev nD) (t : Fin cfg0.N) (h0 : t.val % 8 = 0) (h1 : ¬t.val % 8 = 7) :
    accAt m c t.val t.isLt = accFirst c (grid0.coords t) (ms0 t) (hs0 t) (ms1 t) (hs1 t) (ms2 t) (hs2 t) (ms3 t) (hs3 t) (ms4 t) (hs4 t) accM (Memref.isWhole_whole _) ((isFirst_iff t).mpr h0) (fun h => h1 ((isLast_iff t).mp h)) (blockAt m c 0 t) (blockAt m c 1 t) (blockAt m c 2 t) (blockAt m c 3 t) := by
  obtain ⟨n, hn⟩ := t
  have hN : n < 8 := lt_of_lt_of_eq hn N8
  cases n with
  | zero => exact rfl
  | succ n => exfalso; dsimp only at h0; omega

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) (ms4 t) (hs4 t) accM (Memref.isWhole_whole _) (fun h => h0 ((isFirst_iff t).mp h)) (fun h => h1 ((isLast_iff t).mp h)) (blockAt m c 0 t) (blockAt m c 1 t) (blockAt m c 2 t) (blockAt m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (blockAt m c 0 t) (blockAt m c 1 t) (blockAt m c 2 t) (blockAt m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the result window's staging buffer holds after the body at point `t`: at the last point the stored
    accumulator; before, nothing is stored (and nothing is written back): a placeholder nothing consults. -/
def resAt (c : Dev nD) (t : Fin cfg0.N) : Vec F S1x1 .f32 :=
  if h1 : t.val % 8 = 7 then
    outLast c (grid0.coords t) (ms0 t) (hs0 t) (ms1 t) (hs1 t) (ms2 t) (hs2 t) (ms3 t) (hs3 t) (ms4 t) (hs4 t) accM (Memref.isWhole_whole _) (fun h => by
        have h' := (isFirst_iff t).mp h; omega) ((isLast_iff t).mpr h1) (blockAt m c 0 t) (blockAt m c 1 t) (blockAt m c 2 t) (blockAt m c 3 t) (accAt m c (t.val - 1) (Nat.lt_of_le_of_lt (Nat.sub_le _ _) t.isLt))
  else outV.read (Elt F) outV.junk

theorem resAt_last (c : Dev nD) (t : Fin cfg0.N) (h0 : ¬t.val % 8 = 0) (h1 : t.val % 8 = 7) :
    resAt m c t = outLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (blockAt m c 0 t) (blockAt m c 1 t) (blockAt m c 2 t) (blockAt m c 3 t) (accAt m c (t.val - 1) (Nat.lt_of_le_of_lt (Nat.sub_le _ _) t.isLt)) := by
  unfold resAt; rw [dif_pos h1]

/-- The region's invariant before position `n`: before the first point the accumulator at anything; afterwards at what
    the point before left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input's buffer at its block, the result window's at
    `resAt`; the invariant `PhiS`; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => resAt m c t
  Φ t := PhiS m c t.val (Nat.le_of_lt_succ t.isLt)
  q _ := fullShare
  owed _ := 0

theorem A_eq (c : Dev nD) (w : Fin cfg0.W) : (dats m 0 c).A w = entry m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = resAt m c t := by dsimp only [dats]

theorem before0 (c : Dev nD) (t : Fin cfg0.N) (d) : (dats m 0 c).before 0 t d = blockAt m c 0 t :=
  before_in0 m (dats m 0 c) (A_eq m c 0) (after0 m c) t d
theorem before1 (c : Dev nD) (t : Fin cfg0.N) (d) : (dats m 0 c).before 1 t d = blockAt m c 1 t :=
  before_in1 m (dats m 0 c) (A_eq m c 1) (after1 m c) t d
theorem before2 (c : Dev nD) (t : Fin cfg0.N) (d) : (dats m 0 c).before 2 t d = blockAt m c 2 t :=
  before_in2 m (dats m 0 c) (A_eq m c 2) (after2 m c) t d
theorem before3 (c : Dev nD) (t : Fin cfg0.N) (d) : (dats m 0 c).before 3 t d = blockAt m c 3 t :=
  before_in3 m (dats m 0 c) (A_eq m c 3) (after3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (blockAt m c 0 t) := by
  unfold Dat.leavesExact; rw [live0 t, after0]
theorem leaves1 (c : Dev nD) (t : Fin cfg0.N) : (dats m 0 c).leavesExact 1 t = owns (c : Thread nD τ) (ms1 t) fullShare (blockAt m c 1 t) := by
  unfold Dat.leavesExact; rw [live1 t, after1]
theorem leaves2 (c : Dev nD) (t : Fin cfg0.N) : (dats m 0 c).leavesExact 2 t = owns (c : Thread nD τ) (ms2 t) fullShare (blockAt m c 2 t) := by
  unfold Dat.leavesExact; rw [live2 t, after2]
theorem leaves3 (c : Dev nD) (t : Fin cfg0.N) : (dats m 0 c).leavesExact 3 t = owns (c : Thread nD τ) (ms3 t) fullShare (blockAt m c 3 t) := by
  unfold Dat.leavesExact; rw [live3 t, after3]

set_option maxHeartbeats 4800000 in
/-- The body at any point: the inputs' buffers hold their blocks; the point is the first, a middle one or the last;
    that case's run applies, the invariant handing over the accumulator at what the point before left (at anything
    at the first point) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 8 := lt_of_lt_of_eq t.isLt N8
  by_cases h0 : t.val % 8 = 0
  · have h1 : ¬t.val % 8 = 7 := by omega
    have hz : t.val = 0 := by omega
    rw [Dat.leavesExact_idle (dats m 0 c) 4 t (idle4 t (fun h => h1 ((isLast_iff t).mp h))) (noFlush4 t (fun h => h1 ((isLast_iff t).mp h)))]
    rw [accAt_first m c t h0 h1]
    unfold accFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr h0) (fun h => h1 ((isLast_iff t).mp h)) (blockAt m c 0 t) (blockAt m c 1 t) (blockAt m c 2 t) (blockAt m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (coverFirst c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 8 = 7
    · rw [show (dats m 0 c).leavesExact 4 t = owns (c : Thread nD τ) (ms4 t) fullShare ((dats m 0 c).after 4 t) from by
        unfold Dat.leavesExact; rw [live4 t ((isLast_iff t).mpr h1)], after4]
      rw [resAt_last m c t h0 h1, accAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((isFirst_iff t).mp h)) ((isLast_iff t).mpr h1) (blockAt m c 0 t) (blockAt m c 1 t) (blockAt m c 2 t) (blockAt m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _)
    · rw [Dat.leavesExact_idle (dats m 0 c) 4 t (idle4 t (fun h => h1 ((isLast_iff t).mp h))) (noFlush4 t (fun h => h1 ((isLast_iff t).mp h)))]
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((isFirst_iff t).mp h)) (fun h => h1 ((isLast_iff t).mp h)) (blockAt m c 0 t) (blockAt m c 1 t) (blockAt m c 2 t) (blockAt m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have ht : (Fin.last cfg0.N).val ≠ 0 := by rw [Fin.val_last]; have : cfg0.N = 8 := N8; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of @main terminates, every array of the region ending at what the proof data say
    and every other unscoped buffer as the reshape after the region leaves it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := sfx_sub) (hfresh := sfx_fresh) (hkeep := sfx_keeps)
    (hmain := hmain m Variants.none) (hA := A_eq m) (hin := hin m) (hout := hout m)

/-- THE FRAME: @main terminates without a fault and both argument arrays end as launched (each is an input window's
    array: the region reads it and writes nothing back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (entry_arg0 m c))),
     ((h c).1 1).trans (((dats m 0 c).arrAt_in 1 rfl _).trans ((A_eq m c 1).trans (entry_arg1 m c)))⟩) (run_main m ρ)

end Cert.Kernel.Frm

end
-- ==== Proof.KIKit.lean ====
/-
  The kernel's program around its one region, and what the region's body is run over.

  @main is fourteen host operations (each row's first entry six times, the row, its last entry five times: the two
  padded arrays), the region on a grid of eight points (block `t` = rows `512 t … 512 t + 511` of the two arguments and
  of the two padded arrays), and one reshape of the region's `[1, 1]` result to a scalar. Stated here: the buffer
  contents the region is entered with (the launch memory after the fourteen operations), that the operations around
  the region leave the argument arrays alone, each window's block at a grid point, the body's two conditions (first
  point, last point) decided over the grid, and where the result window is idle.
-/
import proofs.«102223_j3959959847207_1_alg».proof.Proof.Gen.KernelIdeal.Launch
import proofs.«102223_j3959959847207_1_alg».proof.Proof.Gen.KernelIdeal.Skeleton
import proofs.«102223_j3959959847207_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the fourteen host operations. -/
abbrev entry0 (c : Dev nD) : Valuation τ sig (Elt F) := StableHlo.after (List.flatten [hostOps0]) (fun b => m (c, b))
/-- The same, read at a reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's five arrays (it writes the scalar result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- None of the fourteen operations writes the first argument: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- Nor the second. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point (every input is fetched at every point),
    for any proof data over the entry contents whose body leaves the block in place. -/
theorem before_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's two conditions -/

/-- "This is the first grid point": the condition under which the body zeroes its accumulator. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last grid point": the condition under which the body stores the accumulator into the result window. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before the last point the body stores nothing into the result window, and the pipeline does not write it back. -/
theorem idle4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
/-- At the last point it is stored. -/
theorem live4 : ∀ t : Fin cfg0.N, isLast (grid0.coords t) → cfg0.idle 4 (grid0.coords t) = false := by decide +kernel

/-! ## The memrefs the body is called with -/

abbrev ms0 (t : Fin cfg0.N) : Memref sig .tc .vmem S512x750 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x750 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x761 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x761 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a scratch buffer of the kernel's own, carried from point to point. -/
abbrev accM : Memref sig .tc .vmem S1x1 .f32 := Memref.whole cc0_scratch0
/-- The views through which the accumulator's and the result window's contents are stated. -/
abbrev accV : View sig .tc .vmem S1x1 .f32 := accM.view
abbrev outV : View sig .tc .vmem S1x1 .f32 := (Memref.whole cc0_stg4_0 : Memref sig .tc .vmem S1x1 .f32).view

/-- What the region's invariant holds besides the windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frm

end
-- ==== Proof.KIRunFirst.lean ====
/-
  The body at the FIRST grid point, run whole: the accumulator is zeroed, then the point's partial loss is added to
  it; the result window is left untouched. The stores the run meets into the accumulator are its witness.
-/
import proofs.«102223_j3959959847207_1_alg».proof.Proof.KIKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the accumulator at anything, the result window at contents handed back untouched) the body
    runs to its end with the inputs as they were and the accumulator overwritten by the pieces `LS`. -/
noncomputable def runFirst (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S512x750 .f32) (x2 x3 : Vec F S512x761 .f32) :
    { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun xi4 E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Frm

end
-- ==== Proof.KIRunMid.lean ====
/-
  The body at a MIDDLE grid point (neither first nor last), run whole: the point's partial loss is added to the
  accumulator the point before left; the result window is left untouched.
-/
import proofs.«102223_j3959959847207_1_alg».proof.Proof.KIKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point (the accumulator at `xs`, what the point before left; the result window at contents handed
    back untouched) the body runs to its end with the inputs as they were and the accumulator overwritten by `LS`. -/
noncomputable def runMid (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S512x750 .f32) (x2 x3 : Vec F S512x761 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun xi4 E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Frm

end
-- ==== Proof.KIRunLast.lean ====
/-
  The body at the LAST grid point, run whole: the point's partial loss is added to the accumulator the point before
  left, and the accumulator (times one) is stored into the result window.
-/
import proofs.«102223_j3959959847207_1_alg».proof.Proof.KIKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point (the accumulator at `xs`, the result window at anything) the body runs to its end with the inputs
    as they were, the result window overwritten by the pieces `L4` and the accumulator by `LS`. -/
noncomputable def runLast (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S512x750 .f32) (x2 x3 : Vec F S512x761 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg1 harg1 arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Frm

end
-- ==== Proof.KIFrame.lean ====
/-
  The kernel's frame, and its run with the result named.

  Point by point the accumulator holds: after the first point, what the first-point body stores over a zeroed
  accumulator; after every later point, what the body stores over what the point before left (`accAt`). The result
  window is stored at the last point only (`resAt`), and is idle, and not written back, before. With these as proof
  data the body is run at every grid point by cases (first, middle, last), the region is launched between the host
  operations before it and the reshape after it, and both argument arrays end as launched.
-/
import proofs.«102223_j3959959847207_1_alg».proof.Proof.KIRunFirst
import proofs.«102223_j3959959847207_1_alg».proof.Proof.KIRunMid
import proofs.«102223_j3959959847207_1_alg».proof.Proof.KIRunLast

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's stores into the accumulator cover it. -/
theorem coverFirst (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 : Vec F S512x750 .f32) (x2 x3 : Vec F S512x761 .f32) (y : S1x1.Idx) :
    ∃ pc ∈ (runFirst c i arg1 harg1 arg2 harg2 arg3 harg3 arg4 harg4 arg5 harg5 arg6 harg6 hc0 hc1 x0 x1 x2 x3).1, y ∈ pc.1.set :=
  View.cover_of_tiledL (runFirst c i arg1 harg1 arg2 harg2 arg3 harg3 arg4 harg4 arg5 harg5 arg6 harg6 hc0 hc1 x0 x1 x2 x3).1 S1x1.size (by sl_kernel_rfl) y
/-- What the first point leaves in the accumulator. -/
def accFirst (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 : Vec F S512x750 .f32) (x2 x3 : Vec F S512x761 .f32) : Vec F S1x1 .f32 :=
  accV.read (Elt F) (accV.writes (Elt F) accV.junk (runFirst c i arg1 harg1 arg2 harg2 arg3 harg3 arg4 harg4 arg5 harg5 arg6 harg6 hc0 hc1 x0 x1 x2 x3).1)

/-- A middle point's stores into the accumulator cover it. -/
theorem coverMid (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 : Vec F S512x750 .f32) (x2 x3 : Vec F S512x761 .f32) (xs : Vec F S1x1 .f32) (y : S1x1.Idx) :
    ∃ pc ∈ (runMid c i arg1 harg1 arg2 harg2 arg3 harg3 arg4 harg4 arg5 harg5 arg6 harg6 hc0 hc1 x0 x1 x2 x3 xs).1, y ∈ pc.1.set :=
  View.cover_of_tiledL (runMid c i arg1 harg1 arg2 harg2 arg3 harg3 arg4 harg4 arg5 harg5 arg6 harg6 hc0 hc1 x0 x1 x2 x3 xs).1 S1x1.size (by sl_kernel_rfl) y
/-- What a middle point leaves in the accumulator, over what the point before left. -/
def accMid (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 : Vec F S512x750 .f32) (x2 x3 : Vec F S512x761 .f32) (xs : Vec F S1x1 .f32) : Vec F S1x1 .f32 :=
  accV.read (Elt F) (accV.writes (Elt F) accV.junk (runMid c i arg1 harg1 arg2 harg2 arg3 harg3 arg4 harg4 arg5 harg5 arg6 harg6 hc0 hc1 x0 x1 x2 x3 xs).1)

/-- The last point's stores into the accumulator cover it, -/
theorem coverLastAcc (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) (y : S1x1.Idx) :
    ∃ pc ∈ (runLast c i arg1 harg1 arg2 harg2 arg3 harg3 arg4 harg4 arg5 harg5 arg6 harg6 hc0 hc1 x0 x1 x2 x3 xs).2.1, y ∈ pc.1.set :=
  View.cover_of_tiledL (runLast c i arg1 harg1 arg2 harg2 arg3 harg3 arg4 harg4 arg5 harg5 arg6 harg6 hc0 hc1 x0 x1 x2 x3 xs).2.1 S1x1.size (by sl_kernel_rfl) y
/-- and its store into the result window covers that. -/
theorem coverLastOut (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) (y : S1x1.Idx) :
    ∃ pc ∈ (runLast c i arg1 harg1 arg2 harg2 arg3 harg3 arg4 harg4 arg5 harg5 arg6 harg6 hc0 hc1 x0 x1 x2 x3 xs).1, y ∈ pc.1.set :=
  View.cover_of_tiledL (runLast c i arg1 harg1 arg2 harg2 arg3 harg3 arg4 harg4 arg5 harg5 arg6 harg6 hc0 hc1 x0 x1 x2 x3 xs).1 S1x1.size (by sl_kernel_rfl) y
/-- What the last point leaves in the accumulator, -/
def accLast (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) : Vec F S1x1 .f32 :=
  accV.read (Elt F) (accV.writes (Elt F) accV.junk (runLast c i arg1 harg1 arg2 harg2 arg3 harg3 arg4 harg4 arg5 harg5 arg6 harg6 hc0 hc1 x0 x1 x2 x3 xs).2.1)
/-- and in the result window. -/
def outLast (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) : Vec F S1x1 .f32 :=
  outV.read (Elt F) (outV.writes (Elt F) outV.junk (runLast c i arg1 harg1 arg2 harg2 arg3 harg3 arg4 harg4 arg5 harg5 arg6 harg6 hc0 hc1 x0 x1 x2 x3 xs).1)

/-! ## The accumulator, point by point -/

theorem N8 : cfg0.N = 8 := N_0

theorem notLast_zero (hn : 0 < cfg0.N) : ¬isLast (grid0.coords ⟨0, hn⟩) := fun h => by
  have h' := (isLast_iff ⟨0, hn⟩).mp h; simp at h'
theorem notFirst_succ (n : ℕ) (hn : n + 1 < cfg0.N) : ¬isFirst (grid0.coords ⟨n + 1, hn⟩) := fun h => by
  have h' := (isFirst_iff ⟨n + 1, hn⟩).mp h
  have hN : n + 1 < 8 := lt_of_lt_of_eq hn N8
  dsimp only at h'; omega

/-- What the accumulator holds after the body at position `n`. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr (Nat.zero_mod _)) (notLast_zero hn) (blockAt m c 0 ⟨0, hn⟩) (blockAt m c 1 ⟨0, hn⟩) (blockAt m c 2 ⟨0, hn⟩) (blockAt m c 3 ⟨0, hn⟩)
  | n + 1, hn =>
    if h1 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) ((isLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) (fun h => h1 ((isLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (accAt c n (Nat.lt_of_succ_lt hn))

theorem accAt_first (c : Dev nD) (t : Fin cfg0.N) (h0 : t.val % 8 = 0) (h1 : ¬t.val % 8 = 7) :
    accAt m c t.val t.isLt = accFirst c (grid0.coords t) (ms0 t) (hs0 t) (ms1 t) (hs1 t) (ms2 t) (hs2 t) (ms3 t) (hs3 t) (ms4 t) (hs4 t) accM (Memref.isWhole_whole _) ((isFirst_iff t).mpr h0) (fun h => h1 ((isLast_iff t).mp h)) (blockAt m c 0 t) (blockAt m c 1 t) (blockAt m c 2 t) (blockAt m c 3 t) := by
  obtain ⟨n, hn⟩ := t
  have hN : n < 8 := lt_of_lt_of_eq hn N8
  cases n with
  | zero => exact rfl
  | succ n => exfalso; dsimp only at h0; omega

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) (ms4 t) (hs4 t) accM (Memref.isWhole_whole _) (fun h => h0 ((isFirst_iff t).mp h)) (fun h => h1 ((isLast_iff t).mp h)) (blockAt m c 0 t) (blockAt m c 1 t) (blockAt m c 2 t) (blockAt m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (blockAt m c 0 t) (blockAt m c 1 t) (blockAt m c 2 t) (blockAt m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the result window's staging buffer holds after the body at point `t`: at the last point the stored
    accumulator; before, nothing is stored (and nothing is written back): a placeholder nothing consults. -/
def resAt (c : Dev nD) (t : Fin cfg0.N) : Vec F S1x1 .f32 :=
  if h1 : t.val % 8 = 7 then
    outLast c (grid0.coords t) (ms0 t) (hs0 t) (ms1 t) (hs1 t) (ms2 t) (hs2 t) (ms3 t) (hs3 t) (ms4 t) (hs4 t) accM (Memref.isWhole_whole _) (fun h => by
        have h' := (isFirst_iff t).mp h; omega) ((isLast_iff t).mpr h1) (blockAt m c 0 t) (blockAt m c 1 t) (blockAt m c 2 t) (blockAt m c 3 t) (accAt m c (t.val - 1) (Nat.lt_of_le_of_lt (Nat.sub_le _ _) t.isLt))
  else outV.read (Elt F) outV.junk

theorem resAt_last (c : Dev nD) (t : Fin cfg0.N) (h0 : ¬t.val % 8 = 0) (h1 : t.val % 8 = 7) :
    resAt m c t = outLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (blockAt m c 0 t) (blockAt m c 1 t) (blockAt m c 2 t) (blockAt m c 3 t) (accAt m c (t.val - 1) (Nat.lt_of_le_of_lt (Nat.sub_le _ _) t.isLt)) := by
  unfold resAt; rw [dif_pos h1]

/-- The region's invariant before position `n`: before the first point the accumulator at anything; afterwards at what
    the point before left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input's buffer at its block, the result window's at
    `resAt`; the invariant `PhiS`; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => resAt m c t
  Φ t := PhiS m c t.val (Nat.le_of_lt_succ t.isLt)
  q _ := fullShare
  owed _ := 0

theorem A_eq (c : Dev nD) (w : Fin cfg0.W) : (dats m 0 c).A w = entry m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = resAt m c t := by dsimp only [dats]

theorem before0 (c : Dev nD) (t : Fin cfg0.N) (d) : (dats m 0 c).before 0 t d = blockAt m c 0 t :=
  before_in0 m (dats m 0 c) (A_eq m c 0) (after0 m c) t d
theorem before1 (c : Dev nD) (t : Fin cfg0.N) (d) : (dats m 0 c).before 1 t d = blockAt m c 1 t :=
  before_in1 m (dats m 0 c) (A_eq m c 1) (after1 m c) t d
theorem before2 (c : Dev nD) (t : Fin cfg0.N) (d) : (dats m 0 c).before 2 t d = blockAt m c 2 t :=
  before_in2 m (dats m 0 c) (A_eq m c 2) (after2 m c) t d
theorem before3 (c : Dev nD) (t : Fin cfg0.N) (d) : (dats m 0 c).before 3 t d = blockAt m c 3 t :=
  before_in3 m (dats m 0 c) (A_eq m c 3) (after3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (blockAt m c 0 t) := by
  unfold Dat.leavesExact; rw [live0 t, after0]
theorem leaves1 (c : Dev nD) (t : Fin cfg0.N) : (dats m 0 c).leavesExact 1 t = owns (c : Thread nD τ) (ms1 t) fullShare (blockAt m c 1 t) := by
  unfold Dat.leavesExact; rw [live1 t, after1]
theorem leaves2 (c : Dev nD) (t : Fin cfg0.N) : (dats m 0 c).leavesExact 2 t = owns (c : Thread nD τ) (ms2 t) fullShare (blockAt m c 2 t) := by
  unfold Dat.leavesExact; rw [live2 t, after2]
theorem leaves3 (c : Dev nD) (t : Fin cfg0.N) : (dats m 0 c).leavesExact 3 t = owns (c : Thread nD τ) (ms3 t) fullShare (blockAt m c 3 t) := by
  unfold Dat.leavesExact; rw [live3 t, after3]

set_option maxHeartbeats 4800000 in
/-- The body at any point: the inputs' buffers hold their blocks; the point is the first, a middle one or the last;
    that case's run applies, the invariant handing over the accumulator at what the point before left (at anything
    at the first point) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 8 := lt_of_lt_of_eq t.isLt N8
  by_cases h0 : t.val % 8 = 0
  · have h1 : ¬t.val % 8 = 7 := by omega
    have hz : t.val = 0 := by omega
    rw [Dat.leavesExact_idle (dats m 0 c) 4 t (idle4 t (fun h => h1 ((isLast_iff t).mp h))) (noFlush4 t (fun h => h1 ((isLast_iff t).mp h)))]
    rw [accAt_first m c t h0 h1]
    unfold accFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr h0) (fun h => h1 ((isLast_iff t).mp h)) (blockAt m c 0 t) (blockAt m c 1 t) (blockAt m c 2 t) (blockAt m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (coverFirst c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 8 = 7
    · rw [show (dats m 0 c).leavesExact 4 t = owns (c : Thread nD τ) (ms4 t) fullShare ((dats m 0 c).after 4 t) from by
        unfold Dat.leavesExact; rw [live4 t ((isLast_iff t).mpr h1)], after4]
      rw [resAt_last m c t h0 h1, accAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((isFirst_iff t).mp h)) ((isLast_iff t).mpr h1) (blockAt m c 0 t) (blockAt m c 1 t) (blockAt m c 2 t) (blockAt m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _)
    · rw [Dat.leavesExact_idle (dats m 0 c) 4 t (idle4 t (fun h => h1 ((isLast_iff t).mp h))) (noFlush4 t (fun h => h1 ((isLast_iff t).mp h)))]
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((isFirst_iff t).mp h)) (fun h => h1 ((isLast_iff t).mp h)) (blockAt m c 0 t) (blockAt m c 1 t) (blockAt m c 2 t) (blockAt m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have ht : (Fin.last cfg0.N).val ≠ 0 := by rw [Fin.val_last]; have : cfg0.N = 8 := N8; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of @main terminates, every array of the region ending at what the proof data say
    and every other unscoped buffer as the reshape after the region leaves it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := sfx_sub) (hfresh := sfx_fresh) (hkeep := sfx_keeps)
    (hmain := hmain m Variants.none) (hA := A_eq m) (hin := hin m) (hout := hout m)

/-- THE FRAME: @main terminates without a fault and both argument arrays end as launched (each is an input window's
    array: the region reads it and writes nothing back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (entry_arg0 m c))),
     ((h c).1 1).trans (((dats m 0 c).arrAt_in 1 rfl _).trans ((A_eq m c 1).trans (entry_arg1 m c)))⟩) (run_main m ρ)

end Cert.KernelIdeal.Frm

end
-- ==== Proof.KIStep.lean ====
/-
  What one grid point does to the accumulator, as one pure term: from the point's four input blocks (rows of the two
  arguments, rows of the two padded arrays) and the accumulator's contents before, the contents after — the eleven
  window offsets' block sums added up from zero, plus `0.1f` times the sum of the block's row norms, added to the
  accumulator. Also the accumulator's initial contents (zero) and what the last point stores into the result window
  (the accumulator times one).
-/
import proofs.«102223_j3959959847207_1_alg».proof.Proof.Gen.KernelIdeal.Skeleton

noncomputable section

namespace Cert.KernelIdeal.Frm

open Cert.KernelIdeal Cert.KernelIdeal.Gen Idealize.ShloMosaic Idealize.SL.Sem

variable {F : FTy → Type} [FloatOps F]

/-- The accumulator after a point: the body's stored value, its intermediate results substituted in. -/
def stepVal (x0 x1 : Vec F S512x750 .f32) (x2 x3 : Vec F S512x761 .f32) (s : Vec F S1x1 .f32) : FVec F S1x1 .f32 :=
  k0_pay1 x0 x1
    (k0_pay14 x0 x1 (k0_pay4 x2) (k0_pay5 x3)
      (k0_pay11 x0 x1 (k0_pay4 x2) (k0_pay5 x3)
        (k0_pay8 x0 x1 (k0_pay4 x2) (k0_pay5 x3) (k0_pay6 x0 x1 x2 x3) (k0_pay7 x0 x1 x2 x3))
        (k0_pay9 x0 (k0_pay4 x2)) (k0_pay10 x1 (k0_pay5 x3)))
      (k0_pay12 (k0_pay5 x3)) (k0_pay13 x0 (k0_pay4 x2)))
    (k0_pay15 (k0_pay5 x3)) (k0_pay16 x0 (k0_pay4 x2)) s

/-- The accumulator's contents after the reset at the first point. -/
def zeroAcc : FVec F S1x1 .f32 := k0_pay3

/-- What the last point stores into the result window, from the accumulator. -/
def outVal (s : Vec F S1x1 .f32) : FVec F S1x1 .f32 := k0_pay2 s

end Cert.KernelIdeal.Frm

end
-- ==== Proof.KIPieces.lean ====
/-
  What each case's stores leave, as values: the first point leaves one accumulator step from zero, every later point
  one step from what the point before left, and the last point stores that step's result (times one) into the result
  window.
-/
import proofs.«102223_j3959959847207_1_alg».proof.Proof.KIFrame
import proofs.«102223_j3959959847207_1_alg».proof.Proof.KIStep
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := by
  funext a; fin_cases a <;> rfl

/-- The first point: the accumulator is zeroed, read back, and stepped. -/
theorem accFirst_eq (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 : Vec F S512x750 .f32) (x2 x3 : Vec F S512x761 .f32) :
    accFirst c i arg1 harg1 arg2 harg2 arg3 harg3 arg4 harg4 arg5 harg5 arg6 harg6 hc0 hc1 x0 x1 x2 x3 = stepVal x0 x1 x2 x3 zeroAcc := by
  unfold accFirst
  rw [View.read_writes_eq_canon _ _ _ (coverFirst c i arg1 harg1 arg2 harg2 arg3 harg3 arg4 harg4 arg5 harg5 arg6 harg6 hc0 hc1 x0 x1 x2 x3)]
  unfold runFirst
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, View.ld_unit_zero (S := S512x750) hz2, View.ld_unit_zero (S := S512x761) hz2, View.ld_unit_zero (S := S1x1) hz2]
  rfl

/-- A middle point: one step from what the point before left. -/
theorem accMid_eq (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 : Vec F S512x750 .f32) (x2 x3 : Vec F S512x761 .f32) (xs : Vec F S1x1 .f32) :
    accMid c i arg1 harg1 arg2 harg2 arg3 harg3 arg4 harg4 arg5 harg5 arg6 harg6 hc0 hc1 x0 x1 x2 x3 xs = stepVal x0 x1 x2 x3 xs := by
  unfold accMid
  rw [View.read_writes_eq_canon _ _ _ (coverMid c i arg1 harg1 arg2 harg2 arg3 harg3 arg4 harg4 arg5 harg5 arg6 harg6 hc0 hc1 x0 x1 x2 x3 xs)]
  unfold runMid
  dsimp only
  sl_unfold_words
  rw [View.canon_unit_zero (S := S1x1) hz2]
  simp only [View.readAt_eq_ld, harg1.read_unread, harg2.read_unread, harg3.read_unread, harg4.read_unread, harg6.read_unread, View.ld_unit_zero (S := S512x750) hz2, View.ld_unit_zero (S := S512x761) hz2, View.ld_unit_zero (S := S1x1) hz2]
  rfl

/-- The last point: the same step, -/
theorem accLast_eq (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) :
    accLast c i arg1 harg1 arg2 harg2 arg3 harg3 arg4 harg4 arg5 harg5 arg6 harg6 hc0 hc1 x0 x1 x2 x3 xs = stepVal x0 x1 x2 x3 xs := by
  unfold accLast
  rw [View.read_writes_eq_canon _ _ _ (coverLastAcc c i arg1 harg1 arg2 harg2 arg3 harg3 arg4 harg4 arg5 harg5 arg6 harg6 hc0 hc1 x0 x1 x2 x3 xs)]
  unfold runLast
  dsimp only
  sl_unfold_words
  rw [View.canon_unit_zero (S := S1x1) hz2]
  simp only [View.readAt_eq_ld, harg1.read_unread, harg2.read_unread, harg3.read_unread, harg4.read_unread, harg6.read_unread, View.ld_unit_zero (S := S512x750) hz2, View.ld_unit_zero (S := S512x761) hz2, View.ld_unit_zero (S := S1x1) hz2]
  rfl

/-- and its result, read back and multiplied by one, stored into the result window. -/
theorem outLast_eq (c : Dev nD) (i : grid0.Coords) (arg1 : Memref sig .tc .vmem S512x750 .f32) (harg1 : arg1.IsWhole) (arg2 : Memref sig .tc .vmem S512x750 .f32) (harg2 : arg2.IsWhole) (arg3 : Memref sig .tc .vmem S512x761 .f32) (harg3 : arg3.IsWhole) (arg4 : Memref sig .tc .vmem S512x761 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S512x750 .f32) (x2 x3 : Vec F S512x761 .f32) (xs : Vec F S1x1 .f32) :
    outLast c i arg1 harg1 arg2 harg2 arg3 harg3 arg4 harg4 arg5 harg5 arg6 harg6 hc0 hc1 x0 x1 x2 x3 xs = outVal (stepVal x0 x1 x2 x3 xs) := by
  unfold outLast
  rw [View.read_writes_eq_canon _ _ _ (coverLastOut c i arg1 harg1 arg2 harg2 arg3 harg3 arg4 harg4 arg5 harg5 arg6 harg6 hc0 hc1 x0 x1 x2 x3 xs)]
  unfold runLast
  dsimp only
  sl_unfold_words
  rw [View.canon_unit_zero (S := S1x1) hz2, View.readCov_unit_zero (S := S1x1) _ hz2]
  simp only [View.readAt_eq_ld, harg1.read_unread, harg2.read_unread, harg3.read_unread, harg4.read_unread, harg6.read_unread, View.ld_unit_zero (S := S512x750) hz2, View.ld_unit_zero (S := S512x761) hz2, View.ld_unit_zero (S := S1x1) hz2]
  rfl

end Cert.KernelIdeal.Frm

end
-- ==== Proof.Spec.lean ====
/-
  The loss, as mathematics over the extended reals.

  For two arrays `a0, a2 : [4096, 750]` and a row `b`, the replicate-padded row `[first × 6, row, last × 5]` (length 761)
  reads, at column `k`, the row's column `clamp (k - 6)` into `0 … 749` (`srcCol`). The windowed term at `(b, t, j)`,
  `j < 11`, compares column `t` of the row with column `t + j` of the padded row:

      wterm = exp (-|a0[b,t] - pad a0[b,t+j]| · ½) · |a2[b,t] - pad a2[b,t+j]| ,

  the row norm is `√(Σ_t (a0[b,t] - a2[b,t])²)`, and the loss is

      total = Σ_b Σ_t Σ_j wterm + 0.1f · Σ_b rowNorm b ,

  where `0.1f` is the f32 word `0x3DCCCCCD` both programs spell (never evaluated: the same word on both sides).
  Summed in blocks of 512 rows (`blockVal i`, the order a blocked accumulation produces), the loss is the sum of the
  eight blocks' values: sums over the extended reals commute and reassociate freely, and multiplying a sum by a positive
  real distributes.
-/
import Idealize.ShloMosaic.PureOps.Ideal
import Idealize.ShloMosaic.PureOps.Ideal.Laws
import Idealize.ShloMosaic.Lib.ValueIdx

noncomputable section

open scoped BigOperators

namespace WindowLoss

open Idealize.ShloMosaic Idealize.ShloMosaic.ValueIdx

/-- The shape of both argument arrays. -/
abbrev SA : Shape := ⟨2, ![4096, 750]⟩

/-- Column `k` of the replicate-padded row (6 copies of the first entry, the row, 5 copies of the last) reads this
    column of the row. -/
def srcCol (k : Fin 761) : Fin 750 := ⟨min (k.val - 6) 749, by omega⟩

/-- Column `t + j` of the padded row, for a window offset `j < 11`. -/
def winCol (t : Fin 750) (j : Fin 11) : Fin 761 := ⟨t.val + j.val, by omega⟩

/-- One half, as a real. -/
def half : EReal := ((1 / 2 : ℝ) : EReal)

/-- The weight of the norm term: the f32 word both programs spell for `0.1`. -/
def tenth : EReal := Ideal.ofBits .f32 0x3DCCCCCD#32

/-- `|x|` on the extended reals. -/
def absE (x : EReal) : EReal := max x (-x)

/-- The windowed term at row `b`, column `t`, window offset `j`. -/
def wterm (a0 a2 : SA.Idx → EReal) (b : Fin 4096) (t : Fin 750) (j : Fin 11) : EReal :=
  Ideal.exp (-(absE (a0 (ix2 b t) - a0 (ix2 b (srcCol (winCol t j))))) * half)
    * absE (a2 (ix2 b t) - a2 (ix2 b (srcCol (winCol t j))))

/-- The Euclidean norm of row `b` of `a0 - a2`. -/
def rowNorm (a0 a2 : SA.Idx → EReal) (b : Fin 4096) : EReal :=
  Ideal.sqrt (∑ t : Fin 750, (a0 (ix2 b t) - a2 (ix2 b t)) * (a0 (ix2 b t) - a2 (ix2 b t)))

/-- The loss. -/
def total (a0 a2 : SA.Idx → EReal) : EReal :=
  (∑ b : Fin 4096, ∑ t : Fin 750, ∑ j : Fin 11, wterm a0 a2 b t j) + tenth * ∑ b : Fin 4096, rowNorm a0 a2 b

/-- Row `r` of the `i`-th block of 512 rows. -/
def blockRow (i : Fin 8) (r : Fin 512) : Fin 4096 := ⟨512 * i.val + r.val, by omega⟩

/-- What one block of 512 rows contributes: its windowed terms, offset by offset, plus the weighted sum of its rows'
    norms. -/
def blockVal (a0 a2 : SA.Idx → EReal) (i : Fin 8) : EReal :=
  (∑ j : Fin 11, ∑ r : Fin 512, ∑ t : Fin 750, wterm a0 a2 (blockRow i r) t j)
    + tenth * ∑ r : Fin 512, rowNorm a0 a2 (blockRow i r)

end WindowLoss

end
-- ==== Proof.Consts.lean ====
/-
  The float words the two programs spell, as the extended reals they denote: `0.5`, `1.0`, `2.0` exactly, and the
  word for `0.1` as the dyadic rational `13421773 · 2⁻²⁷` (only its sign and finiteness are ever used). Stated once,
  here; the other modules cite these and never unfold the word-to-real reading themselves.
-/
import proofs.«102223_j3959959847207_1_alg».proof.Proof.Spec

noncomputable section

namespace WindowLoss

open Idealize.ShloMosaic

/-- The word `0x3F000000` denotes one half. -/
theorem ofBits_half : Ideal.ofBits .f32 0x3F000000#32 = half := by
  unfold half
  simp [Ideal.ofBits, Ideal.ieee, -EReal.coe_mul]; norm_num

/-- The word `0x3F800000` denotes `1`. -/
theorem ofBits_one : Ideal.ofBits .f32 0x3F800000#32 = 1 := by
  simp [Ideal.ofBits, Ideal.ieee, -EReal.coe_mul]; norm_num

/-- The word `0x40000000` denotes the real `2`. -/
theorem ofBits_two : Ideal.ofBits .f32 0x40000000#32 = ((2 : ℝ) : EReal) := by
  simp [Ideal.ofBits, Ideal.ieee, -EReal.coe_mul]; norm_num

/-- The f32 word `0x3DCCCCCD` (exponent field `123`, fraction field `5033165`) denotes the real
    `(2²³ + 5033165) · 2^(123 - 127 - 23) = 13421773 / 2²⁷`. -/
theorem tenth_eq : tenth = ((13421773 / 134217728 : ℝ) : EReal) := by
  unfold tenth
  simp [Ideal.ofBits, Ideal.ieee, -EReal.coe_mul]; norm_num

end WindowLoss

end
-- ==== Proof.KIPayload.lean ====
/-
  One grid point's accumulator step, read at the extended reals: the accumulator gains the block's windowed terms,
  offset by offset, plus `0.1f` times the sum of the block's row norms.
-/
import proofs.«102223_j3959959847207_1_alg».proof.Proof.KIStep
import proofs.«102223_j3959959847207_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Frm

open Cert.KernelIdeal Cert.KernelIdeal.Gen Idealize.ShloMosaic Idealize.ShloMosaic.ValueIdx WindowLoss

/-! ## The block's operations, named -/

/-- The sums of a block's rows. -/
def rowS (v : FVec Ideal S512x750 .f32) : FVec Ideal S512 .f32 :=
  multiReduction .add [1] S512 v 0x00000000#32 reduces_S512x750_S512 (.inl rfl) rfl

/-- A vector of 512 entries as a column. -/
def asCol (w : FVec Ideal S512 .f32) : FVec Ideal S512x1 .f32 := shapeCast S512x1 w shapeCasts_S512_S512x1

/-- The sum of a column, as a one-entry matrix. -/
def colS (c : FVec Ideal S512x1 .f32) : FVec Ideal S1x1 .f32 :=
  shapeCast S1x1 (multiReduction .add [0] S1 c 0x00000000#32 reduces_S512x1_S1 (.inl rfl) rfl) shapeCasts_S1_S1x1

/-- Columns `o … o + 749` of a padded block. -/
def slc (o : Nat) (h : S512x761.Slices ![0, o] S512x750) (x : FVec Ideal S512x761 .f32) : FVec Ideal S512x750 .f32 :=
  extractStridedSlice S512x750 ![0, o] x h

/-- Row `r` of the row sums is the sum of row `r`. -/
theorem rowS_apply (v : FVec Ideal S512x750 .f32) (r : Fin 512) : rowS v (ix1 r) = ∑ t : Fin 750, v (ix2 r t) := by
  unfold rowS
  refine (Ideal.multiReduction_add_single v _ reduces_S512x750_S512 (.inl rfl) rfl (ix1 r)).trans ?_
  refine Finset.sum_congr rfl fun t _ => congrArg v ?_
  funext a
  match a with
  | ⟨0, _⟩ => rfl
  | ⟨1, _⟩ => rfl

/-- Entry `(r, 0)` of the column is entry `r` of the vector. -/
theorem asCol_apply (w : FVec Ideal S512 .f32) (r : Fin 512) (u : Fin 1) : asCol w (ix2 r u) = w (ix1 r) := by
  unfold asCol
  refine shapeCast_apply w _ _ _ ?_
  rw [Shape.rowMajor_val_one, Shape.rowMajor_val_two]
  show r.val = r.val * 1 + u.val
  omega

/-- The one entry of a column's sum is the sum of the column's entries. -/
theorem colS_apply (c : FVec Ideal S512x1 .f32) (y : S1x1.Idx) : colS c y = ∑ r : Fin 512, c (ix2 r (0 : Fin 1)) := by
  unfold colS
  refine (shapeCast_apply _ shapeCasts_S1_S1x1 y (ix1 (0 : Fin 1)) ?_).trans ?_
  · rw [Shape.rowMajor_val_one, Shape.rowMajor_val_two]
    have h0 : (y 0).val < 1 := idx2_lt0 y
    have h1 : (y 1).val < 1 := idx2_lt1 y
    show 0 = (y 0).val * 1 + (y 1).val
    omega
  · refine (Ideal.multiReduction_add_single c _ reduces_S512x1_S1 (.inl rfl) rfl (ix1 (0 : Fin 1))).trans ?_
    refine Finset.sum_congr rfl fun r _ => congrArg c ?_
    funext a
    match a with
    | ⟨0, _⟩ => rfl
    | ⟨1, _⟩ => rfl

/-- Column `t` of the cut is column `o + t` of the padded block. -/
theorem slc_apply (o : Nat) (h : S512x761.Slices ![0, o] S512x750) (x : FVec Ideal S512x761 .f32) (r : Fin 512) (t : Fin 750)
    (k : Fin 761) (hk : k.val = o + t.val) : slc o h x (ix2 r t) = x (ix2 r k) :=
  slice2_axis1_apply o x h r t k hk

/-! ## Scalars -/

/-- One windowed term as the kernel spells it: `0 - |·|` for the negation, the word `0.5f` for one half. -/
theorem term_scalar (a b c d : EReal) :
    Ideal.exp ((Ideal.ofBits .f32 0x00000000#32 - max (a - b) (-(a - b))) * Ideal.ofBits .f32 0x3F000000#32) * max (c - d) (-(c - d))
      = Ideal.exp (-(absE (a - b)) * half) * absE (c - d) := by
  rw [Ideal.ofBits_zero_f32, ofBits_half, zero_sub]
  rfl

/-- The windowed terms of one offset, as a block: from the block's rows and the two cuts. -/
def termV (x0 x1 c2 c3 : FVec Ideal S512x750 .f32) : FVec Ideal S512x750 .f32 :=
  mulf (exp (mulf (subf (broadcast S512x750 (Scalar.ofBits .f32 0x00000000#32)) (absf (subf x0 c2)))
    (broadcast S512x750 (Scalar.ofBits .f32 0x3F000000#32)))) (absf (subf x1 c3))

/-- One entry of that block. -/
theorem termV_apply (x0 x1 c2 c3 : FVec Ideal S512x750 .f32) (i : S512x750.Idx) :
    termV x0 x1 c2 c3 i = Ideal.exp (-(absE (x0 i - c2 i)) * half) * absE (x1 i - c3 i) :=
  term_scalar (x0 i) (c2 i) (x1 i) (c3 i)

/-- The sum of all entries of a block, the way the kernel takes it: rows first, then the column of row sums. -/
theorem colS_rowS_apply (v : FVec Ideal S512x750 .f32) (y : S1x1.Idx) :
    colS (asCol (rowS v)) y = ∑ r : Fin 512, ∑ t : Fin 750, v (ix2 r t) := by
  rw [colS_apply]
  refine Finset.sum_congr rfl fun r _ => ?_
  rw [asCol_apply, rowS_apply]

/-! ## The step, term by term -/

/-- One offset's contribution as the kernel computes it: the block of its windowed terms, summed. -/
def offV (o : Nat) (h : S512x761.Slices ![0, o] S512x750) (x0 x1 : FVec Ideal S512x750 .f32) (x2 x3 : FVec Ideal S512x761 .f32) :
    FVec Ideal S1x1 .f32 :=
  colS (asCol (rowS (termV x0 x1 (slc o h x2) (slc o h x3))))

/-- The sum of the block's row norms as the kernel computes it. -/
def normV (x0 x1 : FVec Ideal S512x750 .f32) : FVec Ideal S1x1 .f32 :=
  colS (sqrt (asCol (rowS (mulf (subf x0 x1) (subf x0 x1)))))

/-- The step is the accumulator plus: the eleven offsets' contributions added up from zero, in order, plus the weighted
    sum of norms. -/
theorem stepVal_eq (x0 x1 : Vec Ideal S512x750 .f32) (x2 x3 : Vec Ideal S512x761 .f32) (s : Vec Ideal S1x1 .f32) :
    stepVal (F := Ideal) x0 x1 x2 x3 s
      = shapeCast S1x1 (addf s (addf
      (addf (addf (addf (addf (addf (addf (addf (addf (addf (addf (addf (broadcast S1x1 (Scalar.ofBits .f32 0x00000000#32))
        (offV 0 slices_S512x761_o0_0_S512x750 x0 x1 (k0_pay4 x2) (k0_pay5 x3)))
        (offV 1 slices_S512x761_o0_1_S512x750 x0 x1 (k0_pay4 x2) (k0_pay5 x3)))
        (offV 2 slices_S512x761_o0_2_S512x750 x0 x1 (k0_pay4 x2) (k0_pay5 x3)))
        (offV 3 slices_S512x761_o0_3_S512x750 x0 x1 (k0_pay4 x2) (k0_pay5 x3)))
        (offV 4 slices_S512x761_o0_4_S512x750 x0 x1 (k0_pay4 x2) (k0_pay5 x3)))
        (offV 5 slices_S512x761_o0_5_S512x750 x0 x1 (k0_pay4 x2) (k0_pay5 x3)))
        (offV 6 slices_S512x761_o0_6_S512x750 x0 x1 (k0_pay4 x2) (k0_pay5 x3)))
        (offV 7 slices_S512x761_o0_7_S512x750 x0 x1 (k0_pay4 x2) (k0_pay5 x3)))
        (offV 8 slices_S512x761_o0_8_S512x750 x0 x1 (k0_pay4 x2) (k0_pay5 x3)))
        (offV 9 slices_S512x761_o0_9_S512x750 x0 x1 (k0_pay4 x2) (k0_pay5 x3)))
        (offV 10 slices_S512x761_o0_10_S512x750 x0 x1 (k0_pay4 x2) (k0_pay5 x3)))
      (mulf (broadcast S1x1 (Scalar.ofBits .f32 0x3DCCCCCD#32)) (normV x0 x1)))) shapeCasts_S1x1_S1x1 := rfl

/-! ## The step's value -/

/-- The block's windowed terms at offset `j`, summed. -/
def offSum (x0 x1 : S512x750.Idx → EReal) (x2 x3 : S512x761.Idx → EReal) (j : Fin 11) : EReal :=
  ∑ r : Fin 512, ∑ t : Fin 750,
    Ideal.exp (-(absE (x0 (ix2 r t) - x2 (ix2 r (winCol t j)))) * half) * absE (x1 (ix2 r t) - x3 (ix2 r (winCol t j)))

/-- The sum of the block's row norms. -/
def normSum (x0 x1 : S512x750.Idx → EReal) : EReal :=
  ∑ r : Fin 512, Ideal.sqrt (∑ t : Fin 750, (x0 (ix2 r t) - x1 (ix2 r t)) * (x0 (ix2 r t) - x1 (ix2 r t)))

/-- The cut at `o` read against the window offset `j = o`. -/
theorem offV_apply (o : Nat) (h : S512x761.Slices ![0, o] S512x750) (x0 x1 : FVec Ideal S512x750 .f32)
    (x2 x3 : FVec Ideal S512x761 .f32) (j : Fin 11) (hj : j.val = o) (y : S1x1.Idx) :
    offV o h x0 x1 x2 x3 y = offSum x0 x1 x2 x3 j := by
  unfold offV offSum
  rw [colS_rowS_apply]
  refine Finset.sum_congr rfl fun r _ => Finset.sum_congr rfl fun t _ => ?_
  have hk : (winCol t j).val = o + t.val := by
    show t.val + j.val = o + t.val
    omega
  rw [termV_apply, slc_apply o h x2 r t (winCol t j) hk, slc_apply o h x3 r t (winCol t j) hk]

/-- The norm term's one entry. -/
theorem normV_apply (x0 x1 : FVec Ideal S512x750 .f32) (y : S1x1.Idx) : normV x0 x1 y = normSum x0 x1 := by
  unfold normV normSum
  rw [colS_apply]
  refine Finset.sum_congr rfl fun r _ => ?_
  show Ideal.sqrt (asCol (rowS (mulf (subf x0 x1) (subf x0 x1))) (ix2 r (0 : Fin 1))) = _
  rw [asCol_apply, rowS_apply]
  rfl

/-- The padded blocks pass through a cast to their own shape. -/
theorem pay4_eq (x : Vec Ideal S512x761 .f32) : k0_pay4 (F := Ideal) x = x := shapeCast_self _ _
/-- Likewise the second. -/
theorem pay5_eq (x : Vec Ideal S512x761 .f32) : k0_pay5 (F := Ideal) x = x := shapeCast_self _ _

/-- Eleven terms added up from zero, in order, are their sum. -/
theorem sum11 (B : Fin 11 → EReal) :
    ∑ j, B j = 0 + B 0 + B 1 + B 2 + B 3 + B 4 + B 5 + B 6 + B 7 + B 8 + B 9 + B 10 := by
  simp only [Fin.sum_univ_castSucc, Fin.sum_univ_zero]
  rfl

/-- What a block contributes, from its four input blocks: `x0, x1` the block's rows of the two arguments, `x2, x3` its
    rows of the two padded arrays. -/
def blockTerm (x0 x1 : S512x750.Idx → EReal) (x2 x3 : S512x761.Idx → EReal) : EReal :=
  (∑ j : Fin 11, ∑ r : Fin 512, ∑ t : Fin 750,
      Ideal.exp (-(absE (x0 (ix2 r t) - x2 (ix2 r (winCol t j)))) * half) * absE (x1 (ix2 r t) - x3 (ix2 r (winCol t j))))
    + tenth * ∑ r : Fin 512, Ideal.sqrt (∑ t : Fin 750, (x0 (ix2 r t) - x1 (ix2 r t)) * (x0 (ix2 r t) - x1 (ix2 r t)))

/-- The accumulator after a point is the accumulator before plus the block's contribution. -/
theorem stepVal_apply (x0 x1 : Vec Ideal S512x750 .f32) (x2 x3 : Vec Ideal S512x761 .f32) (s : Vec Ideal S1x1 .f32) (y : S1x1.Idx) :
    stepVal (F := Ideal) x0 x1 x2 x3 s y = s y + blockTerm x0 x1 x2 x3 := by
  rw [stepVal_eq, shapeCast_self]
  simp only [addf_apply, mulf_apply, broadcast_apply, pay4_eq, pay5_eq, normV_apply,
    offV_apply 0 slices_S512x761_o0_0_S512x750 x0 x1 x2 x3 (0 : Fin 11) rfl y,
    offV_apply 1 slices_S512x761_o0_1_S512x750 x0 x1 x2 x3 (1 : Fin 11) rfl y,
    offV_apply 2 slices_S512x761_o0_2_S512x750 x0 x1 x2 x3 (2 : Fin 11) rfl y,
    offV_apply 3 slices_S512x761_o0_3_S512x750 x0 x1 x2 x3 (3 : Fin 11) rfl y,
    offV_apply 4 slices_S512x761_o0_4_S512x750 x0 x1 x2 x3 (4 : Fin 11) rfl y,
    offV_apply 5 slices_S512x761_o0_5_S512x750 x0 x1 x2 x3 (5 : Fin 11) rfl y,
    offV_apply 6 slices_S512x761_o0_6_S512x750 x0 x1 x2 x3 (6 : Fin 11) rfl y,
    offV_apply 7 slices_S512x761_o0_7_S512x750 x0 x1 x2 x3 (7 : Fin 11) rfl y,
    offV_apply 8 slices_S512x761_o0_8_S512x750 x0 x1 x2 x3 (8 : Fin 11) rfl y,
    offV_apply 9 slices_S512x761_o0_9_S512x750 x0 x1 x2 x3 (9 : Fin 11) rfl y,
    offV_apply 10 slices_S512x761_o0_10_S512x750 x0 x1 x2 x3 (10 : Fin 11) rfl y]
  show s y + (Ideal.ofBits .f32 0x00000000#32 + offSum x0 x1 x2 x3 0 + offSum x0 x1 x2 x3 1 + offSum x0 x1 x2 x3 2
    + offSum x0 x1 x2 x3 3 + offSum x0 x1 x2 x3 4 + offSum x0 x1 x2 x3 5 + offSum x0 x1 x2 x3 6 + offSum x0 x1 x2 x3 7
    + offSum x0 x1 x2 x3 8 + offSum x0 x1 x2 x3 9 + offSum x0 x1 x2 x3 10 + tenth * normSum x0 x1)
    = s y + ((∑ j : Fin 11, offSum x0 x1 x2 x3 j) + tenth * normSum x0 x1)
  rw [Ideal.ofBits_zero_f32, sum11]

/-- The reset accumulator is zero. -/
theorem zeroAcc_apply (y : S1x1.Idx) : zeroAcc (F := Ideal) y = 0 := by
  unfold zeroAcc k0_pay3
  rw [shapeCast_self]
  exact Ideal.ofBits_zero_f32

/-- The stored result is the accumulator (times one). -/
theorem outVal_apply (s : Vec Ideal S1x1 .f32) (y : S1x1.Idx) : outVal (F := Ideal) s y = s y := by
  unfold outVal k0_pay2
  show s y * Ideal.ofBits .f32 0x3F800000#32 = s y
  rw [ofBits_one, mul_one]

end Cert.KernelIdeal.Frm

end
-- ==== Proof.KIBlocks.lean ====
/-
  The four input blocks at a grid point, read at an index in terms of the two argument arrays.

  Block `t` of an argument array is its rows `512 t … 512 t + 511`. The two padded arrays are computed from the arguments
  by the host operations before the region (each row's first entry six times, the row, its last entry five times), so
  block `t` of a padded array, at row `r` and column `k`, is the argument's row `512 t + r` at column `srcCol k`.
-/
import proofs.«102223_j3959959847207_1_alg».proof.Proof.KIKit
import proofs.«102223_j3959959847207_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Frm

open Cert.KernelIdeal Cert.KernelIdeal.Gen Idealize.ShloMosaic Idealize.ShloMosaic.TcCoe Idealize.ShloMosaic.ValueIdx Idealize.SL.Sem WindowLoss
open Idealize.ShloMosaic.Pipeline (Dat Cfg Window)

variable (m : (ℓ : Loc nD τ sig) → Buf (Elt Ideal) ℓ)

/-- A grid point as a block number. -/
def pt (t : Fin cfg0.N) : Fin 8 := ⟨t.val, lt_of_lt_of_eq t.isLt N_0⟩

/-- The two argument arrays on core `c`, as launched. -/
abbrev argA (c : Dev nD) : SA.Idx → EReal := m ((c : Thread nD τ).loc main_arg0)
abbrev argB (c : Dev nD) : SA.Idx → EReal := m ((c : Thread nD τ).loc main_arg1)

/-! ## A block of an array is the array at the shifted row

Each of the four input windows steps through its array's rows in blocks of 512 and takes every column: at grid point
`t` its block index is `(t, 0)`, so the block's entry `(r, k)` sits at `(512 t + r, k)` of the array. -/

namespace Blocks

variable {F : FTy → Type} [FloatOps F]

/-- The four input windows' block indices at grid point `t`: `t` along the rows, `0` along the columns. -/
theorem index_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Block `t` of any contents of the first window's array. -/
theorem read0 (A : S4096x750.Idx → Elt F .f32) (t : Fin cfg0.N) (r : Fin 512) (k : Fin 750) :
    (((cfg0.win 0).blk t).view.read (Elt F) A : S512x750.Idx → Elt F .f32) (ix2 r k) = A (ix2 (blockRow (pt t) r) k) := by
  show A (((cfg0.win 0).blk t).view.emb (ix2 r k)) = _
  congr 1; funext a; apply Fin.ext
  match a with
  | ⟨0, _⟩ => show win0_0.index t (0 : Fin 2) * 512 + 1 * r.val = 512 * t.val + r.val; rw [(index_rows t).1.1]; omega
  | ⟨1, _⟩ => show win0_0.index t (1 : Fin 2) * 750 + 1 * k.val = k.val; rw [(index_rows t).1.2]; omega

/-- Block `t` of any contents of the second window's array. -/
theorem read1 (A : S4096x750.Idx → Elt F .f32) (t : Fin cfg0.N) (r : Fin 512) (k : Fin 750) :
    (((cfg0.win 1).blk t).view.read (Elt F) A : S512x750.Idx → Elt F .f32) (ix2 r k) = A (ix2 (blockRow (pt t) r) k) := by
  show A (((cfg0.win 1).blk t).view.emb (ix2 r k)) = _
  congr 1; funext a; apply Fin.ext
  match a with
  | ⟨0, _⟩ => show win0_1.index t (0 : Fin 2) * 512 + 1 * r.val = 512 * t.val + r.val; rw [(index_rows t).2.1.1]; omega
  | ⟨1, _⟩ => show win0_1.index t (1 : Fin 2) * 750 + 1 * k.val = k.val; rw [(index_rows t).2.1.2]; omega

/-- Block `t` of any contents of the third window's array. -/
theorem read2 (A : S4096x761.Idx → Elt F .f32) (t : Fin cfg0.N) (r : Fin 512) (k : Fin 761) :
    (((cfg0.win 2).blk t).view.read (Elt F) A : S512x761.Idx → Elt F .f32) (ix2 r k) = A (ix2 (blockRow (pt t) r) k) := by
  show A (((cfg0.win 2).blk t).view.emb (ix2 r k)) = _
  congr 1; funext a; apply Fin.ext
  match a with
  | ⟨0, _⟩ => show win0_2.index t (0 : Fin 2) * 512 + 1 * r.val = 512 * t.val + r.val; rw [(index_rows t).2.2.1.1]; omega
  | ⟨1, _⟩ => show win0_2.index t (1 : Fin 2) * 761 + 1 * k.val = k.val; rw [(index_rows t).2.2.1.2]; omega

/-- Block `t` of any contents of the fourth window's array. -/
theorem read3 (A : S4096x761.Idx → Elt F .f32) (t : Fin cfg0.N) (r : Fin 512) (k : Fin 761) :
    (((cfg0.win 3).blk t).view.read (Elt F) A : S512x761.Idx → Elt F .f32) (ix2 r k) = A (ix2 (blockRow (pt t) r) k) := by
  show A (((cfg0.win 3).blk t).view.emb (ix2 r k)) = _
  congr 1; funext a; apply Fin.ext
  match a with
  | ⟨0, _⟩ => show win0_3.index t (0 : Fin 2) * 512 + 1 * r.val = 512 * t.val + r.val; rw [(index_rows t).2.2.2.1]; omega
  | ⟨1, _⟩ => show win0_3.index t (1 : Fin 2) * 761 + 1 * k.val = k.val; rw [(index_rows t).2.2.2.2]; omega

/-! ## The padded array

`padOf a` is `a` with six columns before and five after: the six are copies of column `0` (that column sliced out,
broadcast along a new axis of length six, flattened to `[4096, 6]`), the five copies of column `749`. -/

/-- Six copies of column `0`, as a `[4096, 6]` array. -/
def colsBefore {α : Type} (a : S4096x750.Idx → α) : S4096x6.Idx → α :=
  shapeCast S4096x6 (broadcastInDim S4096x1x6 ![0, 1] bcast_S4096x1_S4096x1x6_0_1
    (extractStridedSlice S4096x1 ![0, 0] a slices_S4096x750_S4096x1_0_0)) shapeCasts_S4096x1x6_S4096x6

/-- Five copies of column `749`, as a `[4096, 5]` array. -/
def colsAfter {α : Type} (a : S4096x750.Idx → α) : S4096x5.Idx → α :=
  shapeCast S4096x5 (broadcastInDim S4096x1x5 ![0, 1] bcast_S4096x1_S4096x1x5_0_1
    (extractStridedSlice S4096x1 ![0, 749] a slices_S4096x750_S4096x1_0_749)) shapeCasts_S4096x1x5_S4096x5

/-- The three pieces of the padded array, in order along the columns. -/
abbrev padPieces {α : Type} (a : S4096x750.Idx → α) : List ((s : Shape) × (s.Idx → α)) :=
  [⟨S4096x6, colsBefore a⟩, ⟨S4096x750, a⟩, ⟨S4096x5, colsAfter a⟩]

/-- A `[4096, 750]` array with each row's first entry six times before it and its last entry five times after it. -/
def padOf (a : S4096x750.Idx → Elt F .f32) : S4096x761.Idx → Elt F .f32 :=
  concatenate S4096x761 1 (padPieces a) concatenates_S4096x6_S4096x750_S4096x5_S4096x761_d1

/-- The six columns before the row: entry `(b, c)` flattens from `(b, 0, c)` of the broadcast, which is `(b, 0)` of the
    sliced column, which is `(b, 0)` of the array. -/
theorem colsBefore_apply {α : Type} (a : S4096x750.Idx → α) (b : Fin 4096) (c : Fin 6) :
    colsBefore a (ix2 b c) = a (ix2 b (⟨0, by omega⟩ : Fin 750)) :=
  (shapeCast_apply _ shapeCasts_S4096x1x6_S4096x6 (ix2 b c) (ix3 b (0 : Fin 1) c) (by
      rw [Shape.rowMajor_val_three, Shape.rowMajor_val_two]
      show (b.val * 1 + 0) * 6 + c.val = b.val * 6 + c.val; omega)).trans <|
  (broadcastInDim_apply ![0, 1] bcast_S4096x1_S4096x1x6_0_1 _ (ix3 b (0 : Fin 1) c) (ix2 b (0 : Fin 1)) (fun x => match x with
      | ⟨0, _⟩ => by show b.val = if (4096 : Nat) = 1 then 0 else b.val; rw [if_neg (by decide)]
      | ⟨1, _⟩ => by show (0 : Nat) = if (1 : Nat) = 1 then 0 else 0; rw [if_pos rfl])).trans <|
  extractStridedSlice_apply ![0, 0] a slices_S4096x750_S4096x1_0_0 (ix2 b (0 : Fin 1)) (ix2 b (⟨0, by omega⟩ : Fin 750)) (fun x => match x with
      | ⟨0, _⟩ => by show b.val = 0 + b.val; omega
      | ⟨1, _⟩ => by show (0 : Nat) = 0 + 0; rfl)

/-- The five columns after the row, likewise from column `749`. -/
theorem colsAfter_apply {α : Type} (a : S4096x750.Idx → α) (b : Fin 4096) (c : Fin 5) :
    colsAfter a (ix2 b c) = a (ix2 b (⟨749, by omega⟩ : Fin 750)) :=
  (shapeCast_apply _ shapeCasts_S4096x1x5_S4096x5 (ix2 b c) (ix3 b (0 : Fin 1) c) (by
      rw [Shape.rowMajor_val_three, Shape.rowMajor_val_two]
      show (b.val * 1 + 0) * 5 + c.val = b.val * 5 + c.val; omega)).trans <|
  (broadcastInDim_apply ![0, 1] bcast_S4096x1_S4096x1x5_0_1 _ (ix3 b (0 : Fin 1) c) (ix2 b (0 : Fin 1)) (fun x => match x with
      | ⟨0, _⟩ => by show b.val = if (4096 : Nat) = 1 then 0 else b.val; rw [if_neg (by decide)]
      | ⟨1, _⟩ => by show (0 : Nat) = if (1 : Nat) = 1 then 0 else 0; rw [if_pos rfl])).trans <|
  extractStridedSlice_apply ![0, 749] a slices_S4096x750_S4096x1_0_749 (ix2 b (0 : Fin 1)) (ix2 b (⟨749, by omega⟩ : Fin 750)) (fun x => match x with
      | ⟨0, _⟩ => by show b.val = 0 + b.val; omega
      | ⟨1, _⟩ => by show (749 : Nat) = 749 + 0; rfl)

/-- Off the column axis a piece's index and the whole's agree. -/
theorem same_row {n n' : Nat} (b : Fin 4096) (k : Fin n) (k' : Fin n') :
    ∀ x : Fin 2, x ≠ (1 : Fin 2) → ((ix2 b k' : (⟨2, ![4096, n']⟩ : Shape).Idx) x).val = ((ix2 b k : (⟨2, ![4096, n]⟩ : Shape).Idx) x).val :=
  fun x => match x with
    | ⟨0, _⟩ => fun _ => rfl
    | ⟨1, _⟩ => fun h => absurd rfl h

/-- The padded array at column `k` is the array at column `srcCol k`: columns `0 … 5` fall in the first piece (column
    `0` of the array), `6 … 755` in the array itself six columns on, `756 … 760` in the last piece (column `749`). -/
theorem padOf_apply (a : S4096x750.Idx → Elt F .f32) (b : Fin 4096) (k : Fin 761) :
    padOf a (ix2 b k) = a (ix2 b (srcCol k)) := by
  unfold padOf
  rcases Nat.lt_or_ge k.val 6 with h0 | h0
  · refine (concatenate_apply_piece (t := S4096x761) 1 (padPieces a) concatenates_S4096x6_S4096x750_S4096x5_S4096x761_d1 (ix2 b k)
      0 (Nat.zero_lt_succ _) S4096x6 (colsBefore a) rfl rfl 0 rfl (ix2 b (⟨k.val, h0⟩ : Fin 6)) (same_row b k _)
      (by show 0 + k.val = k.val; omega)).trans ((colsBefore_apply a b _).trans ?_)
    exact congrArg (fun q => a (ix2 b q)) (Fin.ext (by show 0 = min (k.val - 6) 749; omega))
  · rcases Nat.lt_or_ge k.val 756 with h1 | h1
    · refine (concatenate_apply_piece (t := S4096x761) 1 (padPieces a) concatenates_S4096x6_S4096x750_S4096x5_S4096x761_d1 (ix2 b k)
        1 (by show 1 < 3; omega) S4096x750 a rfl rfl 6 rfl (ix2 b (⟨k.val - 6, by omega⟩ : Fin 750)) (same_row b k _)
        (by show 6 + (k.val - 6) = k.val; omega)).trans ?_
      exact congrArg (fun q => a (ix2 b q)) (Fin.ext (by show k.val - 6 = min (k.val - 6) 749; omega))
    · have hk : k.val < 761 := k.isLt
      refine (concatenate_apply_piece (t := S4096x761) 1 (padPieces a) concatenates_S4096x6_S4096x750_S4096x5_S4096x761_d1 (ix2 b k)
        2 (by show 2 < 3; omega) S4096x5 (colsAfter a) rfl rfl 756 rfl (ix2 b (⟨k.val - 756, by omega⟩ : Fin 5)) (same_row b k _)
        (by show 756 + (k.val - 756) = k.val; omega)).trans ((colsAfter_apply a b _).trans ?_)
      exact congrArg (fun q => a (ix2 b q)) (Fin.ext (by show 749 = min (k.val - 6) 749; omega))

/-! ## What the region finds in the two padded arrays -/

variable (mF : (ℓ : Loc nD τ sig) → Buf (Elt F) ℓ)

/-- The third window's array is the first argument, padded: the first seven host operations compute exactly that, and the
    later seven write other arrays. -/
theorem entry_v6 (c : Dev nD) :
    (entry mF c main_v6 : S4096x761.Idx → Elt F .f32) = padOf (mF ((c : Thread nD τ).loc main_arg0)) := by
  show StableHlo.after hostOps0 (fun b => mF (c, b)) (Proc.devRef .tc main_v6) = _
  after_results
  rfl

/-- The fourth window's array is the second argument, padded. -/
theorem entry_v13 (c : Dev nD) :
    (entry mF c main_v13 : S4096x761.Idx → Elt F .f32) = padOf (mF ((c : Thread nD τ).loc main_arg1)) := by
  show StableHlo.after hostOps0 (fun b => mF (c, b)) (Proc.devRef .tc main_v13) = _
  after_results
  rfl

end Blocks

open Blocks

/-! ## The four blocks -/

/-- Block `t` of the first argument. -/
theorem block0_apply (c : Dev nD) (t : Fin cfg0.N) (r : Fin 512) (k : Fin 750) :
    (blockAt m c 0 t : S512x750.Idx → EReal) (ix2 r k) = argA m c (ix2 (blockRow (pt t) r) k) := by
  show (((cfg0.win 0).blk t).view.read (Elt Ideal) (entry m c main_arg0) : S512x750.Idx → EReal) (ix2 r k) = _
  rw [read0, entry_arg0]

/-- Block `t` of the second argument. -/
theorem block1_apply (c : Dev nD) (t : Fin cfg0.N) (r : Fin 512) (k : Fin 750) :
    (blockAt m c 1 t : S512x750.Idx → EReal) (ix2 r k) = argB m c (ix2 (blockRow (pt t) r) k) := by
  show (((cfg0.win 1).blk t).view.read (Elt Ideal) (entry m c main_arg1) : S512x750.Idx → EReal) (ix2 r k) = _
  rw [read1, entry_arg1]

/-- Block `t` of the first argument's padded array. -/
theorem block2_apply (c : Dev nD) (t : Fin cfg0.N) (r : Fin 512) (k : Fin 761) :
    (blockAt m c 2 t : S512x761.Idx → EReal) (ix2 r k) = argA m c (ix2 (blockRow (pt t) r) (srcCol k)) := by
  show (((cfg0.win 2).blk t).view.read (Elt Ideal) (entry m c main_v6) : S512x761.Idx → EReal) (ix2 r k) = _
  rw [read2, entry_v6, padOf_apply]

/-- Block `t` of the second argument's padded array. -/
theorem block3_apply (c : Dev nD) (t : Fin cfg0.N) (r : Fin 512) (k : Fin 761) :
    (blockAt m c 3 t : S512x761.Idx → EReal) (ix2 r k) = argB m c (ix2 (blockRow (pt t) r) (srcCol k)) := by
  show (((cfg0.win 3).blk t).view.read (Elt Ideal) (entry m c main_v13) : S512x761.Idx → EReal) (ix2 r k) = _
  rw [read3, entry_v13, padOf_apply]

end Cert.KernelIdeal.Frm

end
-- ==== Proof.SpecSum.lean ====
/-
  The eight blocks of 512 rows partition the 4096 rows, so the blocks' contributions add up to the loss.

  Three facts carry it. Sums over the extended reals commute and reassociate (an additive commutative monoid). The rows
  `0 … 4095` are in bijection with the pairs (block `i < 8`, row `r < 512` of the block) through
  `b = 512 · i + r`, so a sum over rows is a double sum over blocks and rows of a block. And the weight `0.1f` is a
  nonnegative real (`13421773 · 2⁻²⁷`), and multiplication by a nonnegative real distributes over sums of extended
  reals.
-/
import proofs.«102223_j3959959847207_1_alg».proof.Proof.Consts
import Mathlib.Data.EReal.Operations
import Mathlib.Algebra.BigOperators.Group.Finset.Basic
import Mathlib.Data.Fintype.BigOperators

noncomputable section

open scoped BigOperators

namespace WindowLoss

open Idealize.ShloMosaic Idealize.ShloMosaic.ValueIdx

/-- The weight is nonnegative. -/
theorem tenth_nonneg : 0 ≤ tenth := by
  rw [tenth_eq]
  exact EReal.coe_nonneg.mpr (by norm_num)

/-- The weight is finite. -/
theorem tenth_ne_top : tenth ≠ ⊤ := by
  rw [tenth_eq]
  exact EReal.coe_ne_top _

/-- Multiplication by a nonnegative finite extended real distributes over a finite sum. -/
theorem mul_sum_of_nonneg_of_ne_top {ι : Type*} (c : EReal) (hc : 0 ≤ c) (hc' : c ≠ ⊤) (s : Finset ι)
    (f : ι → EReal) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- Rows correspond to pairs (block, row of the block): `b = 512 · i + r` with `i = b / 512`, `r = b % 512`. -/
def blockEquiv : Fin 8 × Fin 512 ≃ Fin 4096 where
  toFun p := blockRow p.1 p.2
  invFun b := (⟨b.val / 512, by omega⟩, ⟨b.val % 512, by omega⟩)
  left_inv := by
    rintro ⟨i, r⟩
    refine Prod.ext (Fin.ext ?_) (Fin.ext ?_)
    · show (512 * i.val + r.val) / 512 = i.val
      omega
    · show (512 * i.val + r.val) % 512 = r.val
      omega
  right_inv := by
    intro b
    refine Fin.ext ?_
    show 512 * (b.val / 512) + b.val % 512 = b.val
    omega

/-- A sum over the 4096 rows is the sum, over the eight blocks, of the sums over each block's 512 rows. -/
theorem sum_rows (f : Fin 4096 → EReal) :
    ∑ b : Fin 4096, f b = ∑ i : Fin 8, ∑ r : Fin 512, f (blockRow i r) := by
  rw [← Equiv.sum_comp blockEquiv f, Fintype.sum_prod_type]
  rfl

/-- The statement over arbitrary windowed terms `w`, row terms `n` and a nonnegative finite weight `c`. -/
theorem sum_blocks (c : EReal) (hc : 0 ≤ c) (hc' : c ≠ ⊤) (w : Fin 4096 → Fin 750 → Fin 11 → EReal)
    (n : Fin 4096 → EReal) :
    ∑ i : Fin 8, ((∑ j : Fin 11, ∑ r : Fin 512, ∑ t : Fin 750, w (blockRow i r) t j)
        + c * ∑ r : Fin 512, n (blockRow i r))
      = (∑ b : Fin 4096, ∑ t : Fin 750, ∑ j : Fin 11, w b t j) + c * ∑ b : Fin 4096, n b := by
  rw [Finset.sum_add_distrib]
  congr 1
  · -- the windowed terms: within a block, move the offset sum innermost
    rw [sum_rows (fun b => ∑ t : Fin 750, ∑ j : Fin 11, w b t j)]
    refine Finset.sum_congr rfl (fun i _ => ?_)
    rw [Finset.sum_comm]
    refine Finset.sum_congr rfl (fun r _ => ?_)
    rw [Finset.sum_comm]
  · -- the row norms: the weight moves inside the sum over blocks
    rw [sum_rows n, mul_sum_of_nonneg_of_ne_top c hc hc']

/-- The eight blocks' contributions add up to the loss. -/
theorem sum_blockVal (a0 a2 : SA.Idx → EReal) : ∑ i : Fin 8, blockVal a0 a2 i = total a0 a2 := by
  unfold blockVal total
  exact sum_blocks tenth tenth_nonneg tenth_ne_top (fun b t j => wterm a0 a2 b t j) (fun b => rowNorm a0 a2 b)

end WindowLoss

end
-- ==== Proof.KIValue.lean ====
/-
  The kernel's run with its result named.

  By induction over the grid points the accumulator after point `n` holds the sum of the first `n + 1` blocks'
  contributions (one accumulator step per point, from zero). The last point stores the accumulator into the result
  window, which is written back to the `[1, 1]` result array (its one block is the array), and the reshape after the
  region reads that one entry: the program's scalar result is the sum of the eight blocks' contributions, that is the
  loss of the two argument arrays.
-/
import proofs.«102223_j3959959847207_1_alg».proof.Proof.KIFrame
import proofs.«102223_j3959959847207_1_alg».proof.Proof.KIPieces
import proofs.«102223_j3959959847207_1_alg».proof.Proof.KIPayload
import proofs.«102223_j3959959847207_1_alg».proof.Proof.KIBlocks
import proofs.«102223_j3959959847207_1_alg».proof.Proof.SpecSum
import Idealize.ShloMosaic.Lib.Pipeline.Value
import Idealize.ShloMosaic.Lib.StableHlo.Run

set_option maxRecDepth 16384

noncomputable section

open scoped BigOperators

namespace Cert.KernelIdeal.Frm

open Cert.KernelIdeal Cert.KernelIdeal.Gen
open Idealize.ShloMosaic Idealize.ShloMosaic.TcCoe Idealize.ShloMosaic.ValueIdx WindowLoss
open Idealize.SL Idealize.SL.Sem
open Idealize.ShloMosaic.Pipeline (Dat Cfg Window)

variable (m : (ℓ : Loc nD τ sig) → Buf (Elt Ideal) ℓ) (ρ : Dev nD → PrngReg)

/-! ## A block's contribution, in terms of the arguments -/

/-- The four blocks at point `t` contribute block `t`'s share of the loss. -/
theorem blockTerm_at (c : Dev nD) (t : Fin cfg0.N) :
    blockTerm (blockAt m c 0 t) (blockAt m c 1 t) (blockAt m c 2 t) (blockAt m c 3 t)
      = blockVal (argA m c) (argB m c) (pt t) := by
  unfold blockTerm blockVal wterm rowNorm
  simp only [block0_apply, block1_apply, block2_apply, block3_apply]

/-! ## The accumulator after each point -/

/-- Block `k`'s contribution, zero past the grid. -/
def bv (c : Dev nD) (k : ℕ) : EReal := if h : k < 8 then blockVal (argA m c) (argB m c) ⟨k, h⟩ else 0

theorem bv_pt (c : Dev nD) (t : Fin cfg0.N) : blockVal (argA m c) (argB m c) (pt t) = bv m c t.val := by
  unfold bv; rw [dif_pos (lt_of_lt_of_eq t.isLt N8)]; rfl

theorem accAt_congr (c : Dev nD) (a b : ℕ) (h : a = b) (ha : a < cfg0.N) (hb : b < cfg0.N) : accAt m c a ha = accAt m c b hb := by
  subst h; rfl

/-- After point `n` the accumulator holds the first `n + 1` blocks' contributions. -/
theorem accAt_apply (c : Dev nD) : ∀ (n : ℕ) (hn : n < cfg0.N) (y : S1x1.Idx),
    accAt m c n hn y = ∑ k ∈ Finset.range (n + 1), bv m c k
  | 0, hn, y => by
    have e := accAt_first m c ⟨0, hn⟩ (Nat.zero_mod _) (by simp)
    dsimp only at e
    rw [e, accFirst_eq, stepVal_apply, zeroAcc_apply, blockTerm_at, bv_pt, zero_add, Finset.sum_range_one]
  | n + 1, hn, y => by
    have hN : n + 1 < 8 := lt_of_lt_of_eq hn N8
    have h0 : ¬(⟨n + 1, hn⟩ : Fin cfg0.N).val % 8 = 0 := by dsimp only; omega
    have ih := accAt_apply c n (Nat.lt_of_succ_lt hn) y
    have e2 : accAt m c ((⟨n + 1, hn⟩ : Fin cfg0.N).val - 1) (Nat.lt_of_le_of_lt (Nat.sub_le _ _) hn) = accAt m c n (Nat.lt_of_succ_lt hn) :=
      accAt_congr m c _ _ (Nat.add_sub_cancel n 1) _ _
    by_cases h1 : (⟨n + 1, hn⟩ : Fin cfg0.N).val % 8 = 7
    · have e := accAt_last m c ⟨n + 1, hn⟩ h0 h1
      rw [e2] at e
      rw [e, accLast_eq, stepVal_apply, blockTerm_at, bv_pt, ih, Finset.sum_range_succ _ (n + 1)]
    · have e := accAt_mid m c ⟨n + 1, hn⟩ h0 h1
      rw [e2] at e
      rw [e, accMid_eq, stepVal_apply, blockTerm_at, bv_pt, ih, Finset.sum_range_succ _ (n + 1)]

/-! ## The result array -/

/-- What the last point stores into the result window, as contents of the `[1, 1]` result array. -/
abbrev result (c : Dev nD) : Buf (Elt Ideal) ((c : Thread nD τ).loc main_v14) := resAt m c t0_7

/-- It is the loss of the two argument arrays. -/
theorem result_apply (c : Dev nD) (y : S1x1.Idx) : result m c y = total (argA m c) (argB m c) := by
  have h0 : ¬(t0_7 : Fin cfg0.N).val % 8 = 0 := by decide
  have h1 : (t0_7 : Fin cfg0.N).val % 8 = 7 := by decide
  show resAt m c t0_7 y = _
  have e := resAt_last m c t0_7 h0 h1
  rw [e, outLast_eq, outVal_apply, stepVal_apply, accAt_apply, blockTerm_at, bv_pt]
  rw [← sum_blockVal]
  show ∑ k ∈ Finset.range 7, bv m c k + bv m c 7 = _
  rw [← Finset.sum_range_succ (bv m c) 7]
  rw [Finset.sum_range]
  refine Finset.sum_congr rfl (fun i _ => ?_)
  unfold bv; rw [dif_pos i.isLt]

/-- The one write-back, at the last point, writes it: the window's one block, read through zero offsets, is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 8 := N8
  have h7 : t.val = 7 := by have := (flush0_4 t).mp hf; have := t.isLt; omega
  obtain rfl : t = t0_7 := Fin.ext h7
  show (cfg0.win 4).cut (grid0.coords t0_7) ((dats m 0 c).after 4 t0_7) = _
  rw [after4]
  have hz' : (fun a => win0_4.index t0_7 a * main_v14.ty.shape.size a) = fun _ => 0 := funext fun a => by fin_cases a <;> decide
  exact (Memref.read_access_unit_zero (Elt Ideal) main_v14 hz' (fun a => by rw [congrFun hz' a]; simp) (result m c)).symm

/-- So the result array ends holding it. -/
theorem final_out (c : Dev nD) : (dats m 0 c).arrAt 4 cfg0.N = result m c :=
  (dats m 0 c).arrAt_eq_of_cover 4 (result m c) (flushed_eq m c) fun i =>
    ⟨t0_7, (flush0_4 t0_7).mpr rfl, by
      show i ∈ ((View.whole main_v14).slice (win0_4.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1 from by decide +kernel]; omega⟩

/-! ## The reshape after the region, and the run -/

/-- The scalar the reshape after the region leaves: the result array's one entry. -/
theorem tail_result (c : Dev nD) :
    Pipeline.afterTail₀ cfgs (dats m) 0 (entry0 m) [hostOps1] c main_v15 = shapeCast S_ (result m c) shapeCasts_S1x1_S_ := by
  unfold Pipeline.afterTail₀
  show StableHlo.after hostOps1 _ (Proc.devRef .tc main_v15) = _
  after_results
  have e : Pipeline.withArrays (cfgs 0).spec c (entry0 m c) (fun w => (dats m 0 c).arrAt w (cfgs 0).N) (Proc.devRef .tc main_v14) = result m c :=
    (Pipeline.withArrays_arr spec0 launch0.win.arr_inj c _ _ 4).trans (final_out m c)
  rw [e]
  rfl

/-- Every weakly fair execution of @main terminates with the scalar result at the loss of the two argument arrays,
    and both arguments as launched. -/
theorem run_value : θ_run defs (onTc (τ := τ) (main (F := Ideal))) ⟨m, fun _ => 0, ρ⟩ (fun r => ∀ c : Dev nD,
      r.2.mem ((c.tc : Thread nD τ).loc main_v15) = (fun _ => total (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((h c).2 main_v15 (Pipeline.mem_restRefs_of main_v15 (by decide) (by decide))).trans (tail_result m c)).trans
        (funext fun j => (shapeCast_apply (result m c) shapeCasts_S1x1_S_ j (ix2 0 0) (by
          have h1 : ((S_ : Shape).rowMajor j).val < 1 := (S_.rowMajor j).isLt
          show ((⟨2, ![1, 1]⟩ : Shape).rowMajor (ix2 (0 : Fin 1) (0 : Fin 1))).val = _
          rw [Shape.rowMajor_val_two]
          show 0 * 1 + 0 = _
          omega)).trans (result_apply m c _)),
     ((h c).1 0).trans (((dats m 0 c).arrAt_in 0 rfl _).trans ((A_eq m c 0).trans (entry_arg0 m c))),
     ((h c).1 1).trans (((dats m 0 c).arrAt_in 1 rfl _).trans ((A_eq m c 1).trans (entry_arg1 m c)))⟩) (run_main m ρ)

end Cert.KernelIdeal.Frm

end
-- ==== Proof.RefValue.lean ====
/-
  The reference's result is the loss of Proof/Spec.lean.

  The reference pads each row by replication (`concatenate [first × 6, row, last × 5]`), stacks the eleven shifted
  slices of the padded array along a new last axis, and sums `exp (-|a0 - win0| / 2) · |a2 - win2|` over all of
  `[4096, 750, 11]`; to this it adds `0.1f` times the sum over rows of `√(Σ_t (a0 - a2)²)`, and multiplies by one.
-/
import proofs.«102223_j3959959847207_1_alg».proof.Proof.Gen.ReferenceIdeal.Read
import proofs.«102223_j3959959847207_1_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

open WindowLoss (ofBits_one ofBits_two)

/-! ## Index sets as products of their coordinate ranges -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The replicate-padded row -/

/-- Three pieces `[4096, 6] ++ [4096, 750] ++ [4096, 5]` along the columns, the first a copy of the middle's column `0` and
    the last a copy of its column `749`: column `k` of the whole reads the middle's column `min (k - 6) 749`. -/
theorem pad_apply {α : Type} (x : S4096x750.Idx → α) (p0 : S4096x6.Idx → α) (p2 : S4096x5.Idx → α)
    (h0 : ∀ (b : Fin 4096) (c : Fin 6), p0 (ix2 b c) = x (ix2 b (⟨0, by omega⟩ : Fin 750)))
    (h2 : ∀ (b : Fin 4096) (c : Fin 5), p2 (ix2 b c) = x (ix2 b (⟨749, by omega⟩ : Fin 750)))
    (b : Fin 4096) (k : Fin 761) :
    concatenate S4096x761 1 [⟨S4096x6, p0⟩, ⟨S4096x750, x⟩, ⟨S4096x5, p2⟩]
        concatenates_S4096x6_S4096x750_S4096x5_S4096x761_d1 (ix2 b k)
      = x (ix2 b (WindowLoss.srcCol k)) := by
  by_cases hk0 : k.val < 6
  · -- the first piece: a copy of column 0
    rw [concatenate_apply_piece (t := S4096x761) 1 [⟨S4096x6, p0⟩, ⟨S4096x750, x⟩, ⟨S4096x5, p2⟩]
      concatenates_S4096x6_S4096x750_S4096x5_S4096x761_d1 (ix2 b k)
      0 (by show 0 < 3; omega) S4096x6 p0 rfl rfl 0 rfl (ix2 b (⟨k.val, hk0⟩ : Fin 6))
      (fun a => match a with
        | ⟨0, _⟩ => fun _ => rfl
        | ⟨1, _⟩ => fun h => absurd rfl h)
      (by show 0 + k.val = k.val; omega), h0]
    congr 2
    exact Fin.ext (by show 0 = min (k.val - 6) 749; omega)
  · by_cases hk1 : k.val < 756
    · -- the middle piece: the row itself, six columns on
      rw [concatenate_apply_piece (t := S4096x761) 1 [⟨S4096x6, p0⟩, ⟨S4096x750, x⟩, ⟨S4096x5, p2⟩]
      concatenates_S4096x6_S4096x750_S4096x5_S4096x761_d1 (ix2 b k)
        1 (by show 1 < 3; omega) S4096x750 x rfl rfl 6 rfl (ix2 b (⟨k.val - 6, by omega⟩ : Fin 750))
        (fun a => match a with
          | ⟨0, _⟩ => fun _ => rfl
          | ⟨1, _⟩ => fun h => absurd rfl h)
        (by show 6 + (k.val - 6) = k.val; omega)]
      congr 2
      exact Fin.ext (by show k.val - 6 = min (k.val - 6) 749; omega)
    · -- the last piece: a copy of column 749
      rw [concatenate_apply_piece (t := S4096x761) 1 [⟨S4096x6, p0⟩, ⟨S4096x750, x⟩, ⟨S4096x5, p2⟩]
      concatenates_S4096x6_S4096x750_S4096x5_S4096x761_d1 (ix2 b k)
        2 (by show 2 < 3; omega) S4096x5 p2 rfl rfl 756 rfl (ix2 b (⟨k.val - 756, by omega⟩ : Fin 5))
        (fun a => match a with
          | ⟨0, _⟩ => fun _ => rfl
          | ⟨1, _⟩ => fun h => absurd rfl h)
        (by show 756 + (k.val - 756) = k.val; omega), h2]
      congr 2
      exact Fin.ext (by show 749 = min (k.val - 6) 749; omega)

/-- The first piece of the first array's padding is a copy of its column `0`. -/
theorem v2_apply (x0 : (⟨S4096x750, .f32⟩ : BufTy).Contents (Elt Ideal)) (b : Fin 4096) (c : Fin 6) :
    val_main_v2 (F := Ideal) x0 (ix2 b c) = x0 (ix2 b (⟨0, by omega⟩ : Fin 750)) := by
  rw [val_main_v2_apply, val_main_v1_apply, val_main_v0_apply]
  congr 1
  funext a
  match a with
  | ⟨0, _⟩ => exact Fin.ext (by show (b.val * 6 + c.val) / 6 = b.val; omega)
  | ⟨1, _⟩ => rfl

/-- The last piece of the first array's padding is a copy of its column `749`. -/
theorem v5_apply (x0 : (⟨S4096x750, .f32⟩ : BufTy).Contents (Elt Ideal)) (b : Fin 4096) (c : Fin 5) :
    val_main_v5 (F := Ideal) x0 (ix2 b c) = x0 (ix2 b (⟨749, by omega⟩ : Fin 750)) := by
  rw [val_main_v5_apply, val_main_v4_apply, val_main_v3_apply]
  congr 1
  funext a
  match a with
  | ⟨0, _⟩ => exact Fin.ext (by show (b.val * 5 + c.val) / 5 = b.val; omega)
  | ⟨1, _⟩ => rfl

/-- The first piece of the second array's padding is a copy of its column `0`. -/
theorem v9_apply (x1 : (⟨S4096x750, .f32⟩ : BufTy).Contents (Elt Ideal)) (b : Fin 4096) (c : Fin 6) :
    val_main_v9 (F := Ideal) x1 (ix2 b c) = x1 (ix2 b (⟨0, by omega⟩ : Fin 750)) := by
  rw [val_main_v9_apply, val_main_v8_apply, val_main_v7_apply]
  congr 1
  funext a
  match a with
  | ⟨0, _⟩ => exact Fin.ext (by show (b.val * 6 + c.val) / 6 = b.val; omega)
  | ⟨1, _⟩ => rfl

/-- The last piece of the second array's padding is a copy of its column `749`. -/
theorem v12_apply (x1 : (⟨S4096x750, .f32⟩ : BufTy).Contents (Elt Ideal)) (b : Fin 4096) (c : Fin 5) :
    val_main_v12 (F := Ideal) x1 (ix2 b c) = x1 (ix2 b (⟨749, by omega⟩ : Fin 750)) := by
  rw [val_main_v12_apply, val_main_v11_apply, val_main_v10_apply]
  congr 1
  funext a
  match a with
  | ⟨0, _⟩ => exact Fin.ext (by show (b.val * 5 + c.val) / 5 = b.val; omega)
  | ⟨1, _⟩ => rfl

/-- The first array's padded row at column `k` is the row at column `srcCol k`. -/
theorem v6_apply (x0 : (⟨S4096x750, .f32⟩ : BufTy).Contents (Elt Ideal)) (b : Fin 4096) (k : Fin 761) :
    val_main_v6 (F := Ideal) x0 (ix2 b k) = x0 (ix2 b (WindowLoss.srcCol k)) :=
  pad_apply x0 _ _ (v2_apply x0) (v5_apply x0) b k

/-- The second array's padded row at column `k` is the row at column `srcCol k`. -/
theorem v13_apply (x1 : (⟨S4096x750, .f32⟩ : BufTy).Contents (Elt Ideal)) (b : Fin 4096) (k : Fin 761) :
    val_main_v13 (F := Ideal) x1 (ix2 b k) = x1 (ix2 b (WindowLoss.srcCol k)) :=
  pad_apply x1 _ _ (v9_apply x1) (v12_apply x1) b k

/-! ## The stack of the eleven shifted slices -/

/-- Eleven pieces `[4096, 750, 1]` stacked along the last axis: the whole at `(b, t, j)` reads piece `j` at `(b, t, 0)`. -/
theorem stack_apply {α : Type} (f : Fin 11 → (S4096x750x1.Idx → α))
    (h : Shape.Concatenates ((List.ofFn fun n : Fin 11 => (⟨S4096x750x1, f n⟩ : (s : Shape) × (s.Idx → α))).map (·.1))
      S4096x750x11 2)
    (b : Fin 4096) (t : Fin 750) (j : Fin 11) :
    concatenate S4096x750x11 2 (List.ofFn fun n : Fin 11 => (⟨S4096x750x1, f n⟩ : (s : Shape) × (s.Idx → α))) h (ix3 b t j)
      = f j (ix3 b t (0 : Fin 1)) :=
  concatenate_ofFn_unit_apply (t := S4096x750x11) (s₁ := S4096x750x1) 2 f h rfl rfl (ix3 b t j) j rfl (ix3 b t (0 : Fin 1))
    (fun a => match a with
      | ⟨0, _⟩ => fun _ => rfl
      | ⟨1, _⟩ => fun _ => rfl
      | ⟨2, _⟩ => fun h => absurd rfl h)

/-- The eleven shifted slices of the first array's padded rows, each as a `[4096, 750, 1]` array. -/
def win0 (x0 : (⟨S4096x750, .f32⟩ : BufTy).Contents (Elt Ideal)) : Fin 11 → (S4096x750x1.Idx → EReal)
  | ⟨0, _⟩ => val_main_v25 (F := Ideal) x0
  | ⟨1, _⟩ => val_main_v26 (F := Ideal) x0
  | ⟨2, _⟩ => val_main_v27 (F := Ideal) x0
  | ⟨3, _⟩ => val_main_v28 (F := Ideal) x0
  | ⟨4, _⟩ => val_main_v29 (F := Ideal) x0
  | ⟨5, _⟩ => val_main_v30 (F := Ideal) x0
  | ⟨6, _⟩ => val_main_v31 (F := Ideal) x0
  | ⟨7, _⟩ => val_main_v32 (F := Ideal) x0
  | ⟨8, _⟩ => val_main_v33 (F := Ideal) x0
  | ⟨9, _⟩ => val_main_v34 (F := Ideal) x0
  | ⟨10, _⟩ => val_main_v35 (F := Ideal) x0

/-- The eleven shifted slices of the second array's padded rows, each as a `[4096, 750, 1]` array. -/
def win1 (x1 : (⟨S4096x750, .f32⟩ : BufTy).Contents (Elt Ideal)) : Fin 11 → (S4096x750x1.Idx → EReal)
  | ⟨0, _⟩ => val_main_v48 (F := Ideal) x1
  | ⟨1, _⟩ => val_main_v49 (F := Ideal) x1
  | ⟨2, _⟩ => val_main_v50 (F := Ideal) x1
  | ⟨3, _⟩ => val_main_v51 (F := Ideal) x1
  | ⟨4, _⟩ => val_main_v52 (F := Ideal) x1
  | ⟨5, _⟩ => val_main_v53 (F := Ideal) x1
  | ⟨6, _⟩ => val_main_v54 (F := Ideal) x1
  | ⟨7, _⟩ => val_main_v55 (F := Ideal) x1
  | ⟨8, _⟩ => val_main_v56 (F := Ideal) x1
  | ⟨9, _⟩ => val_main_v57 (F := Ideal) x1
  | ⟨10, _⟩ => val_main_v58 (F := Ideal) x1

/-- Slice `j` of the first array's padded rows, at `(b, t, 0)`, is the padded row `b` at column `t + j`. -/
theorem win0_apply (x0 : (⟨S4096x750, .f32⟩ : BufTy).Contents (Elt Ideal)) (b : Fin 4096) (t : Fin 750) (j : Fin 11) :
    win0 x0 j (ix3 b t (0 : Fin 1)) = val_main_v6 (F := Ideal) x0 (ix2 b (WindowLoss.winCol t j)) := by
  fin_cases j <;>
  · simp only [win0, val_main_v25_apply, val_main_v26_apply, val_main_v27_apply, val_main_v28_apply, val_main_v29_apply, val_main_v30_apply, val_main_v31_apply, val_main_v32_apply, val_main_v33_apply, val_main_v34_apply, val_main_v35_apply,
      val_main_v14_apply, val_main_v15_apply, val_main_v16_apply, val_main_v17_apply, val_main_v18_apply, val_main_v19_apply, val_main_v20_apply, val_main_v21_apply, val_main_v22_apply, val_main_v23_apply, val_main_v24_apply]
    congr 1
    funext a
    match a with
    | ⟨0, _⟩ => rfl
    | ⟨1, _⟩ => first | rfl | exact Fin.ext (Nat.add_comm _ _)

/-- Slice `j` of the second array's padded rows, at `(b, t, 0)`, is the padded row `b` at column `t + j`. -/
theorem win1_apply (x1 : (⟨S4096x750, .f32⟩ : BufTy).Contents (Elt Ideal)) (b : Fin 4096) (t : Fin 750) (j : Fin 11) :
    win1 x1 j (ix3 b t (0 : Fin 1)) = val_main_v13 (F := Ideal) x1 (ix2 b (WindowLoss.winCol t j)) := by
  fin_cases j <;>
  · simp only [win1, val_main_v48_apply, val_main_v49_apply, val_main_v50_apply, val_main_v51_apply, val_main_v52_apply, val_main_v53_apply, val_main_v54_apply, val_main_v55_apply, val_main_v56_apply, val_main_v57_apply, val_main_v58_apply,
      val_main_v37_apply, val_main_v38_apply, val_main_v39_apply, val_main_v40_apply, val_main_v41_apply, val_main_v42_apply, val_main_v43_apply, val_main_v44_apply, val_main_v45_apply, val_main_v46_apply, val_main_v47_apply]
    congr 1
    funext a
    match a with
    | ⟨0, _⟩ => rfl
    | ⟨1, _⟩ => first | rfl | exact Fin.ext (Nat.add_comm _ _)

/-- The first array's stacked windows at `(b, t, j)`: the row at column `srcCol (t + j)`. -/
theorem v36_apply (x0 : (⟨S4096x750, .f32⟩ : BufTy).Contents (Elt Ideal)) (b : Fin 4096) (t : Fin 750) (j : Fin 11) :
    val_main_v36 (F := Ideal) x0 (ix3 b t j) = x0 (ix2 b (WindowLoss.srcCol (WindowLoss.winCol t j))) := by
  have hl : val_main_v36 (F := Ideal) x0 (ix3 b t j) = win0 x0 j (ix3 b t (0 : Fin 1)) :=
    stack_apply (win0 x0) concatenates_S4096x750x1_S4096x750x1_S4096x750x1_S4096x750x1_S4096x750x1_S4096x750x1_S4096x750x1_S4096x750x1_S4096x750x1_S4096x750x1_S4096x750x1_S4096x750x11_d2 b t j
  rw [hl, win0_apply, v6_apply]

/-- The second array's stacked windows at `(b, t, j)`: the row at column `srcCol (t + j)`. -/
theorem v59_apply (x1 : (⟨S4096x750, .f32⟩ : BufTy).Contents (Elt Ideal)) (b : Fin 4096) (t : Fin 750) (j : Fin 11) :
    val_main_v59 (F := Ideal) x1 (ix3 b t j) = x1 (ix2 b (WindowLoss.srcCol (WindowLoss.winCol t j))) := by
  have hl : val_main_v59 (F := Ideal) x1 (ix3 b t j) = win1 x1 j (ix3 b t (0 : Fin 1)) :=
    stack_apply (win1 x1) concatenates_S4096x750x1_S4096x750x1_S4096x750x1_S4096x750x1_S4096x750x1_S4096x750x1_S4096x750x1_S4096x750x1_S4096x750x1_S4096x750x1_S4096x750x1_S4096x750x11_d2 b t j
  rw [hl, win1_apply, v13_apply]

/-! ## The windowed term -/

/-- The first array broadcast along the window axis reads, at `(b, t, j)`, the array at `(b, t)`. -/
theorem v61_apply (x0 : (⟨S4096x750, .f32⟩ : BufTy).Contents (Elt Ideal)) (b : Fin 4096) (t : Fin 750) (j : Fin 11) :
    val_main_v61 (F := Ideal) x0 (ix3 b t j) = x0 (ix2 b t) := by
  rw [val_main_v61_apply, val_main_v60_apply]
  congr 1
  funext a
  match a with
  | ⟨0, _⟩ => rfl
  | ⟨1, _⟩ => rfl

/-- The second array broadcast along the window axis reads, at `(b, t, j)`, the array at `(b, t)`. -/
theorem v69_apply (x1 : (⟨S4096x750, .f32⟩ : BufTy).Contents (Elt Ideal)) (b : Fin 4096) (t : Fin 750) (j : Fin 11) :
    val_main_v69 (F := Ideal) x1 (ix3 b t j) = x1 (ix2 b t) := by
  rw [val_main_v69_apply, val_main_v68_apply]
  congr 1
  funext a
  match a with
  | ⟨0, _⟩ => rfl
  | ⟨1, _⟩ => rfl

/-- The reference's summand at `(b, t, j)` is the windowed term: the quotient by `2` is the product with one half. -/
theorem v72_apply (x0 x1 : (⟨S4096x750, .f32⟩ : BufTy).Contents (Elt Ideal)) (b : Fin 4096) (t : Fin 750) (j : Fin 11) :
    val_main_v72 (F := Ideal) x0 x1 (ix3 b t j) = WindowLoss.wterm x0 x1 b t j := by
  rw [val_main_v72_apply, val_main_v67_apply, val_main_v66_apply, val_main_v65_apply, val_main_cst_apply,
    val_main_v64_apply, val_main_v63_apply, val_main_v62_apply, val_main_v71_apply, val_main_v70_apply,
    v61_apply, v36_apply, v69_apply, v59_apply]
  simp only [Ideal.mulf_def, Ideal.hostUnary_exp_def, Ideal.hostDivf_def, Ideal.ofBits_def, Ideal.hostNegf_def,
    Ideal.negf_def, Ideal.hostAbsf_def, Ideal.absf_def, Ideal.subf_def]
  rw [ofBits_two, Ideal.div_coe (by norm_num : (2 : ℝ) ≠ 0)]
  rfl

/-! ## The row norm -/

/-- The reference's norm of row `b` is the Euclidean norm of the row of differences. -/
theorem v75_apply (x0 x1 : (⟨S4096x750, .f32⟩ : BufTy).Contents (Elt Ideal)) (b : Fin 4096) :
    val_main_v75 (F := Ideal) x0 x1 (ix1 b) = WindowLoss.rowNorm x0 x1 b := by
  rw [val_main_v75_apply, val_main_call0_v1_apply, val_main_call0_cst_apply]
  simp only [Ideal.hostUnary_sqrt_def, Ideal.ofBits_def, Ideal.ofBits_zero_f32, zero_add]
  unfold WindowLoss.rowNorm
  congr 1
  refine Finset.sum_congr rfl fun t _ => ?_
  have hi : idx_main_call0_v1 (ix1 b) t = ix2 b t := by
    funext a
    match a with
    | ⟨0, _⟩ => rfl
    | ⟨1, _⟩ => rfl
  rw [val_main_call0_v0_apply, val_main_v74_apply, hi]
  rfl

/-! ## The whole -/

/-- The reference's result, at the extended reals, is the loss of the two argument arrays. -/
theorem ref_total (x0 x1 : (⟨S4096x750, .f32⟩ : BufTy).Contents (Elt Ideal)) (i : S_.Idx) :
    val_main_v79 (F := Ideal) x0 x1 i = WindowLoss.total x0 x1 := by
  rw [val_main_v79_apply, val_main_v78_apply, val_main_v73_apply, val_main_v77_apply, val_main_v76_apply,
    val_main_cst_3_apply, val_main_cst_2_apply, val_main_cst_0_apply, val_main_cst_1_apply]
  simp only [Ideal.mulf_def, Ideal.addf_def, Ideal.ofBits_def, Ideal.ofBits_zero_f32, zero_add, ofBits_one, mul_one]
  rw [sum_idx3, sum_idx1]
  simp only [v72_apply, v75_apply]
  rfl

end Cert.ReferenceIdeal.RefValue

end
-- ==== Proof.lean ====
/-
  A sliding-window loss, blocked over rows, against its one-shot reference — equivalence over the extended reals.

  Both programs compute, for two arrays `a0, a2 : [4096, 750]`,

      Σ_b Σ_t Σ_{j<11} exp (-|a0[b,t] - pad a0[b,t+j]| / 2) · |a2[b,t] - pad a2[b,t+j]|  +  0.1f · Σ_b ‖a0[b,·] - a2[b,·]‖₂ ,

  where `pad` repeats a row's first entry six times in front and its last entry five times behind. The reference stacks
  the eleven shifted slices and sums once; the kernel runs over eight blocks of 512 rows, adds each block's eleven
  offset sums and `0.1f` times the block's row norms into a `[1, 1]` accumulator (zeroed at the first block) and stores the
  accumulator, times one, at the last block. The two agree because sums over the extended reals commute and
  reassociate, multiplying by the positive real `0.1f` distributes over them, `0 - x = -x`, and halving is dividing
  by two (Proof/Spec.lean states the loss, Proof/SpecSum.lean the block decomposition, Proof/RefValue.lean the
  reference's side, Proof/KIPayload.lean one block's step, Proof/KIBlocks.lean the blocks as rows of the arguments,
  Proof/KIValue.lean the kernel's run with its result named). No finiteness of the inputs is needed.
  The frames: each kernel program runs its region between the host operations that build the padded arrays and the
  reshape of the result, writes neither argument (Proof/KIFrame.lean, and the same text for the word-level program in
  Proof/KFrame.lean); the reference is host operations only.
-/
import proofs.«102223_j3959959847207_1_alg».proof.Defs
import proofs.«102223_j3959959847207_1_alg».proof.Proof.Gen.Kernel
import proofs.«102223_j3959959847207_1_alg».proof.Proof.Gen.KernelIdeal
import proofs.«102223_j3959959847207_1_alg».proof.Proof.Gen.ReferenceIdeal
import proofs.«102223_j3959959847207_1_alg».proof.Proof.Gen.Pre_finite_inputs
import proofs.«102223_j3959959847207_1_alg».proof.Proof.Gen.ReferenceIdeal.Run
import proofs.«102223_j3959959847207_1_alg».proof.Proof.Gen.ReferenceIdeal.Read
import proofs.«102223_j3959959847207_1_alg».proof.Proof.KFrame
import proofs.«102223_j3959959847207_1_alg».proof.Proof.KIValue
import proofs.«102223_j3959959847207_1_alg».proof.Proof.RefValue

noncomputable section

namespace Cert.Proof

open Idealize.ShloMosaic Idealize.ShloMosaic.TcCoe Idealize.SL.Sem

/-- The word-level kernel program runs and leaves both arguments as launched. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the loss of the two argument arrays. -/
theorem algebraic : Cert.algebraic_KernelIdeal_ReferenceIdeal := by
  intro m ρ m' ρ' _ hagree
  refine ⟨fun c => (fun _ => WindowLoss.total (Cert.KernelIdeal.Frm.argA m c) (Cert.KernelIdeal.Frm.argB m c)),
    Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2]
  funext i
  exact Cert.ReferenceIdeal.RefValue.ref_total _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
